-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x65536 : Shape := ⟨2, ![3, 65536]⟩
abbrev S512x3 : Shape := ⟨2, ![512, 3]⟩
abbrev S512x1 : Shape := ⟨2, ![512, 1]⟩
abbrev S512x512 : Shape := ⟨2, ![512, 512]⟩
abbrev S1x512 : Shape := ⟨2, ![1, 512]⟩
abbrev S1x1 : Shape := ⟨2, ![1, 1]⟩
abbrev S_ : Shape := ⟨0, ![]⟩

class Facts : Prop where
  bcast_S_S3x65536 : S_.BroadcastsInDim S3x65536 (![] : Fin 0 → Fin S3x65536.rank)
  reducesTo_S3x65536_S_d0_1 : S3x65536.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S512x1 : S_.BroadcastsInDim S512x1 (![] : Fin 0 → Fin S512x1.rank)
  reducesTo_S512x1_S_d0_1 : S512x1.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1x1 : S_.BroadcastsInDim S1x1 (![] : Fin 0 → Fin S1x1.rank)
  reducesTo_S1x1_S_d0_1 : S1x1.ReducesTo [0, 1] S_

variable [Facts]

def fn_part8 {F : FTy → Type} [FloatOps F] (main_arg28 : FVec F S1x1 .f32) (main_v133 : IVec S_ 1) (main_v136 : IVec S1x512 1) : IVec S_ 1 :=
  let main_c_53 : IVec S_ 1 := constantI S_ 1 1#1
  let main_v137 : IVec S_ 1 := (fun x v => Host.reduce IntOp.andi x v reducesTo_S1x512_S_d0_1 h_S_) main_v136 main_c_53
  let main_v138 : IVec S_ 1 := andi main_v133 main_v137
  let main_v139 : FVec F S1x1 .f32 := Host.absf main_arg28
  let main_cst_54 : FVec F S_ .f32 := constant S_ .f32 0x7F800000#32
  let main_v140 : FVec F S1x1 .f32 := broadcastInDim S1x1 ![] bcast_S_S1x1 main_cst_54
  let main_v141 : IVec S1x1 1 := cmpf .olt main_v139 main_v140
  let main_c_55 : IVec S_ 1 := constantI S_ 1 1#1
  let main_v142 : IVec S_ 1 := (fun x v => Host.reduce IntOp.andi x v reducesTo_S1x1_S_d0_1 h_S_) main_v141 main_c_55
  let main_v143 : IVec S_ 1 := andi main_v138 main_v142
  main_v143

def fn_part7 {F : FTy → Type} [FloatOps F] (main_arg25 : FVec F S512x512 .f32) (main_arg26 : FVec F S512x1 .f32) (main_arg27 : FVec F S1x512 .f32) (main_arg28 : FVec F S1x1 .f32) (main_v118 : IVec S_ 1) (main_v119 : FVec F S512x3 .f32) : IVec S_ 1 :=
  let main_cst_46 : FVec F S_ .f32 := constant S_ .f32 0x7F800000#32
  let main_v120 : FVec F S512x3 .f32 := broadcastInDim S512x3 ![] bcast_S_S512x3 main_cst_46
  let main_v121 : IVec S512x3 1 := cmpf .olt main_v119 main_v120
  let main_c_47 : IVec S_ 1 := constantI S_ 1 1#1
  let main_v122 : IVec S_ 1 := (fun x v => Host.reduce IntOp.andi x v reducesTo_S512x3_S_d0_1 h_S_) main_v121 main_c_47
  let main_v123 : IVec S_ 1 := andi main_v118 main_v122
  let main_v124 : FVec F S512x512 .f32 := Host.absf main_arg25
  let main_cst_48 : FVec F S_ .f32 := constant S_ .f32 0x7F800000#32
  let main_v125 : FVec F S512x512 .f32 := broadcastInDim S512x512 ![] bcast_S_S512x512 main_cst_48
  let main_v126 : IVec S512x512 1 := cmpf .olt main_v124 main_v125
  let main_c_49 : IVec S_ 1 := constantI S_ 1 1#1
  let main_v127 : IVec S_ 1 := (fun x v => Host.reduce IntOp.andi x v reducesTo_S512x512_S_d0_1 h_S_) main_v126 main_c_49
  let main_v128 : IVec S_ 1 := andi main_v123 main_v127
  let main_v129 : FVec F S512x1 .f32 := Host.absf main_arg26
  let main_cst_50 : FVec F S_ .f32 := constant S_ .f32 0x7F800000#32
  let main_v130 : FVec F S512x1 .f32 := broadcastInDim S512x1 ![] bcast_S_S512x1 main_cst_50
  let main_v131 : IVec S512x1 1 := cmpf .olt main_v129 main_v130
  let main_c_51 : IVec S_ 1 := constantI S_ 1 1#1
  let main_v132 : IVec S_ 1 := (fun x v => Host.reduce IntOp.andi x v reducesTo_S512x1_S_d0_1 h_S_) main_v131 main_c_51
  let main_v133 : IVec S_ 1 := andi main_v128 main_v132
  let main_v134 : FVec F S1x512 .f32 := Host.absf main_arg27
  let main_cst_52 : FVec F S_ .f32 := constant S_ .f32 0x7F800000#32
  let main_v135 : FVec F S1x512 .f32 := broadcastInDim S1x512 ![] bcast_S_S1x512 main_cst_52
  let main_v136 : IVec S1x512 1 := cmpf .olt main_v134 main_v135
  fn_part8 (F := F) main_arg28 main_v133 main_v136

def fn_part6 {F : FTy → Type} [FloatOps F] (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) (main_v98 : IVec S_ 1) (main_v101 : IVec S512x1 1) (main_c_39 : IVec S_ 1) : IVec S_ 1 :=
  let main_v102 : IVec S_ 1 := (fun x v => Host.reduce IntOp.andi x v reducesTo_S512x1_S_d0_1 h_S_) main_v101 main_c_39
  let main_v103 : IVec S_ 1 := andi main_v98 main_v102
  let main_v104 : FVec F S512x3 .f32 := Host.absf main_arg21
  let main_cst_40 : FVec F S_ .f32 := constant S_ .f32 0x7F800000#32
  let main_v105 : FVec F S512x3 .f32 := broadcastInDim S512x3 ![] bcast_S_S512x3 main_cst_40
  let main_v106 : IVec S512x3 1 := cmpf .olt main_v104 main_v105
  let main_c_41 : IVec S_ 1 := constantI S_ 1 1#1
  let main_v107 : IVec S_ 1 := (fun x v => Host.reduce IntOp.andi x v reducesTo_S512x3_S_d0_1 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512x1 .f32 := Host.absf main_arg23
  let main_cst_44 : FVec F S_ .f32 := constant S_ .f32 0x7F800000#32
  let main_v115 : FVec F S512x1 .f32 := broadcastInDim S512x1 ![] bcast_S_S512x1 main_cst_44
  let main_v116 : IVec S512x1 1 := cmpf .olt main_v114 main_v115
  let main_c_45 : IVec S_ 1 := constantI S_ 1 1#1
  let main_v117 : IVec S_ 1 := (fun x v => Host.reduce IntOp.andi x v reducesTo_S512x1_S_d0_1 h_S_) main_v116 main_c_45
  let main_v118 : IVec S_ 1 := andi main_v113 main_v117
  let main_v119 : FVec F S512x3 .f32 := Host.absf main_arg24
  fn_part7 (F := F) main_arg25 main_arg26 main_arg27 main_arg28 main_v118 main_v119

def fn_part5 {F : FTy → Type} [FloatOps F] (main_arg18 : FVec F S512x3 .f32) (main_arg19 : FVec F S512x512 .f32) (main_arg20 : FVec F S512x1 .f32) (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) (main_v83 : IVec S_ 1) (main_v84 : FVec F S512x1 .f32) (main_cst_32 : FVec F S_ .f32) : IVec S_ 1 :=
  let main_v85 : FVec F S512x1 .f32 := broadcastInDim S512x1 ![] bcast_S_S512x1 main_cst_32
  let main_v86 : IVec S512x1 1 := cmpf .olt main_v84 main_v85
  let main_c_33 : IVec S_ 1 := constantI S_ 1 1#1
  let main_v87 : IVec S_ 1 := (fun x v => Host.reduce IntOp.andi x v reducesTo_S512x1_S_d0_1 h_S_) main_v86 main_c_33
  let main_v88 : IVec S_ 1 := andi main_v83 main_v87
  let main_v89 : FVec F S512x3 .f32 := Host.absf main_arg18
  let main_cst_34 : FVec F S_ .f32 := constant S_ .f32 0x7F800000#32
  let main_v90 : FVec F S512x3 .f32 := broadcastInDim S512x3 ![] bcast_S_S512x3 main_cst_34
  let main_v91 : IVec S512x3 1 := cmpf .olt main_v89 main_v90
  let main_c_35 : IVec S_ 1 := constantI S_ 1 1#1
  let main_v92 : IVec S_ 1 := (fun x v => Host.reduce IntOp.andi x v reducesTo_S512x3_S_d0_1 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512x1 .f32 := Host.absf main_arg20
  let main_cst_38 : FVec F S_ .f32 := constant S_ .f32 0x7F800000#32
  let main_v100 : FVec F S512x1 .f32 := broadcastInDim S512x1 ![] bcast_S_S512x1 main_cst_38
  let main_v101 : IVec S512x1 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S512x1 .f32) (main_arg15 : FVec F S512x3 .f32) (main_arg16 : FVec F S512x512 .f32) (main_arg17 : FVec F S512x1 .f32) (main_arg18 : FVec F S512x3 .f32) (main_arg19 : FVec F S512x512 .f32) (main_arg20 : FVec F S512x1 .f32) (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) (main_v63 : IVec S_ 1) (main_v67 : IVec S_ 1) : IVec S_ 1 :=
  let main_v68 : IVec S_ 1 := andi main_v63 main_v67
  let main_v69 : FVec F S512x1 .f32 := Host.absf main_arg14
  let main_cst_26 : FVec F S_ .f32 := constant S_ .f32 0x7F800000#32
  let main_v70 : FVec F S512x1 .f32 := broadcastInDim S512x1 ![] bcast_S_S512x1 main_cst_26
  let main_v71 : IVec S512x1 1 := cmpf .olt main_v69 main_v70
  let main_c_27 : IVec S_ 1 := constantI S_ 1 1#1
  let main_v72 : IVec S_ 1 := (fun x v => Host.reduce IntOp.andi x v reducesTo_S512x1_S_d0_1 h_S_) main_v71 main_c_27
  let main_v73 : IVec S_ 1 := andi main_v68 main_v72
  let main_v74 : FVec F S512x3 .f32 := Host.absf main_arg15
  let main_cst_28 : FVec F S_ .f32 := constant S_ .f32 0x7F800000#32
  let main_v75 : FVec F S512x3 .f32 := broadcastInDim S512x3 ![] bcast_S_S512x3 main_cst_28
  let main_v76 : IVec S512x3 1 := cmpf .olt main_v74 main_v75
  let main_c_29 : IVec S_ 1 := constantI S_ 1 1#1
  let main_v77 : IVec S_ 1 := (fun x v => Host.reduce IntOp.andi x v reducesTo_S512x3_S_d0_1 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512x1 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S512x1 .f32) (main_arg12 : FVec F S512x3 .f32) (main_arg13 : FVec F S512x512 .f32) (main_arg14 : FVec F S512x1 .f32) (main_arg15 : FVec F S512x3 .f32) (main_arg16 : FVec F S512x512 .f32) (main_arg17 : FVec F S512x1 .f32) (main_arg18 : FVec F S512x3 .f32) (main_arg19 : FVec F S512x512 .f32) (main_arg20 : FVec F S512x1 .f32) (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x1 .f32 := Host.absf main_arg11
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S512x3 .f32 := Host.absf main_arg12
  let main_cst_22 : FVec F S_ .f32 := constant S_ .f32 0x7F800000#32
  let main_v60 : FVec F S512x3 .f32 := broadcastInDim S512x3 ![] bcast_S_S512x3 main_cst_22
  let main_v61 : IVec S512x3 1 := cmpf .olt main_v59 main_v60
  let main_c_23 : IVec S_ 1 := constantI S_ 1 1#1
  let main_v62 : IVec S_ 1 := (fun x v => Host.reduce IntOp.andi x v reducesTo_S512x3_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S512x512 .f32) (main_arg8 : FVec F S512x1 .f32) (main_arg9 : FVec F S512x3 .f32) (main_arg10 : FVec F S512x512 .f32) (main_arg11 : FVec F S512x1 .f32) (main_arg12 : FVec F S512x3 .f32) (main_arg13 : FVec F S512x512 .f32) (main_arg14 : FVec F S512x1 .f32) (main_arg15 : FVec F S512x3 .f32) (main_arg16 : FVec F S512x512 .f32) (main_arg17 : FVec F S512x1 .f32) (main_arg18 : FVec F S512x3 .f32) (main_arg19 : FVec F S512x512 .f32) (main_arg20 : FVec F S512x1 .f32) (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S512x3 .f32 := Host.absf main_arg9
  let main_cst_16 : FVec F S_ .f32 := constant S_ .f32 0x7F800000#32
  let main_v45 : FVec F S512x3 .f32 := broadcastInDim S512x3 ![] bcast_S_S512x3 main_cst_16
  let main_v46 : IVec S512x3 1 := cmpf .olt main_v44 main_v45
  let main_c_17 : IVec S_ 1 := constantI S_ 1 1#1
  let main_v47 : IVec S_ 1 := (fun x v => Host.reduce IntOp.andi x v reducesTo_S512x3_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S512x512 .f32) (main_arg5 : FVec F S512x1 .f32) (main_arg6 : FVec F S512x3 .f32) (main_arg7 : FVec F S512x512 .f32) (main_arg8 : FVec F S512x1 .f32) (main_arg9 : FVec F S512x3 .f32) (main_arg10 : FVec F S512x512 .f32) (main_arg11 : FVec F S512x1 .f32) (main_arg12 : FVec F S512x3 .f32) (main_arg13 : FVec F S512x512 .f32) (main_arg14 : FVec F S512x1 .f32) (main_arg15 : FVec F S512x3 .f32) (main_arg16 : FVec F S512x512 .f32) (main_arg17 : FVec F S512x1 .f32) (main_arg18 : FVec F S512x3 .f32) (main_arg19 : FVec F S512x512 .f32) (main_arg20 : FVec F S512x1 .f32) (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) (main_v13 : IVec S_ 1) (main_v16 : IVec S512x3 1) : IVec S_ 1 :=
  let main_c_5 : IVec S_ 1 := constantI S_ 1 1#1
  let main_v17 : IVec S_ 1 := (fun x v => Host.reduce IntOp.andi x v reducesTo_S512x3_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S512x3 .f32 := Host.absf main_arg6
  let main_cst_10 : FVec F S_ .f32 := constant S_ .f32 0x7F800000#32
  let main_v30 : FVec F S512x3 .f32 := broadcastInDim S512x3 ![] bcast_S_S512x3 main_cst_10
  let main_v31 : IVec S512x3 1 := cmpf .olt main_v29 main_v30
  let main_c_11 : IVec S_ 1 := constantI S_ 1 1#1
  let main_v32 : IVec S_ 1 := (fun x v => Host.reduce IntOp.andi x v reducesTo_S512x3_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S3x65536 .f32) (main_arg1 : FVec F S512x3 .f32) (main_arg2 : FVec F S512x1 .f32) (main_arg3 : FVec F S512x3 .f32) (main_arg4 : FVec F S512x512 .f32) (main_arg5 : FVec F S512x1 .f32) (main_arg6 : FVec F S512x3 .f32) (main_arg7 : FVec F S512x512 .f32) (main_arg8 : FVec F S512x1 .f32) (main_arg9 : FVec F S512x3 .f32) (main_arg10 : FVec F S512x512 .f32) (main_arg11 : FVec F S512x1 .f32) (main_arg12 : FVec F S512x3 .f32) (main_arg13 : FVec F S512x512 .f32) (main_arg14 : FVec F S512x1 .f32) (main_arg15 : FVec F S512x3 .f32) (main_arg16 : FVec F S512x512 .f32) (main_arg17 : FVec F S512x1 .f32) (main_arg18 : FVec F S512x3 .f32) (main_arg19 : FVec F S512x512 .f32) (main_arg20 : FVec F S512x1 .f32) (main_arg21 : FVec F S512x3 .f32) (main_arg22 : FVec F S512x512 .f32) (main_arg23 : FVec F S512x1 .f32) (main_arg24 : FVec F S512x3 .f32) (main_arg25 : FVec F S512x512 .f32) (main_arg26 : FVec F S512x1 .f32) (main_arg27 : FVec F S1x512 .f32) (main_arg28 : FVec F S1x1 .f32) : IVec S_ 1 :=
  let main_v0 : FVec F S3x65536 .f32 := Host.absf main_arg0
  let main_cst : FVec F S_ .f32 := constant S_ .f32 0x7F800000#32
  let main_v1 : FVec F S3x65536 .f32 := broadcastInDim S3x65536 ![] bcast_S_S3x65536 main_cst
  let main_v2 : IVec S3x65536 1 := cmpf .olt main_v0 main_v1
  let main_c : IVec S_ 1 := constantI S_ 1 1#1
  let main_v3 : IVec S_ 1 := (fun x v => Host.reduce IntOp.andi x v reducesTo_S3x65536_S_d0_1 h_S_) main_v2 main_c
  let main_v4 : FVec F S512x3 .f32 := Host.absf main_arg1
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S512x3 .f32 := Host.absf main_arg3
  let main_cst_4 : FVec F S_ .f32 := constant S_ .f32 0x7F800000#32
  let main_v15 : FVec F S512x3 .f32 := broadcastInDim S512x3 ![] bcast_S_S512x3 main_cst_4
  let main_v16 : IVec S512x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S3x65536 : Shape := ⟨2, ![3, 65536]⟩
abbrev S512x3 : Shape := ⟨2, ![512, 3]⟩
abbrev S512x1 : Shape := ⟨2, ![512, 1]⟩
abbrev S512x512 : Shape := ⟨2, ![512, 512]⟩
abbrev S1x512 : Shape := ⟨2, ![1, 512]⟩
abbrev S1x1 : Shape := ⟨2, ![1, 1]⟩
abbrev S1x65536 : Shape := ⟨2, ![1, 65536]⟩
abbrev S3x1024 : Shape := ⟨2, ![3, 1024]⟩
abbrev S1x1024 : Shape := ⟨2, ![1, 1024]⟩
abbrev S512x1024 : Shape := ⟨2, ![512, 1024]⟩

abbrev nBuf : Space → Nat
  | .hbm => 48
  | .vmem => 32
  | .smem => 0
  | _ => 0

abbrev bufTy : (tb : Table) → Fin (tcTables nBuf tb) → BufTy
  | .hbm, ⟨0, _⟩ => ⟨S3x65536, .f32⟩
  | .hbm, ⟨1, _⟩ => ⟨S512x3, .f32⟩
  | .hbm, ⟨2, _⟩ => ⟨S512x1, .f32⟩
  | .hbm, ⟨3, _⟩ => ⟨S512x3, .f32⟩
  | .hbm, ⟨4, _⟩ => ⟨S512x512, .f32⟩
  | .hbm, ⟨5, _⟩ => ⟨S512x1, .f32⟩
  | .hbm, ⟨6, _⟩ => ⟨S512x3, .f32⟩
  | .hbm, ⟨7, _⟩ => ⟨S512x512, .f32⟩
  | .hbm, ⟨8, _⟩ => ⟨S512x1, .f32⟩
  | .hbm, ⟨9, _⟩ => ⟨S512x3, .f32⟩
  | .hbm, ⟨10, _⟩ => ⟨S512x512, .f32⟩
  | .hbm, ⟨11, _⟩ => ⟨S512x1, .f32⟩
  | .hbm, ⟨12, _⟩ => ⟨S512x3, .f32⟩
  | .hbm, ⟨13, _⟩ => ⟨S512x512, .f32⟩
  | .hbm, ⟨14, _⟩ => ⟨S512x1, .f32⟩
  | .hbm, ⟨15, _⟩ => ⟨S512x3, .f32⟩
  | .hbm, ⟨16, _⟩ => ⟨S512x512, .f32⟩
  | .hbm, ⟨17, _⟩ => ⟨S512x1, .f32⟩
  | .hbm, ⟨18, _⟩ => ⟨S512x3, .f32⟩
  | .hbm, ⟨19, _⟩ => ⟨S512x512, .f32⟩
  | .hbm, ⟨20, _⟩ => ⟨S512x1, .f32⟩
  | .hbm, ⟨21, _⟩ => ⟨S512x3, .f32⟩
  | .hbm, ⟨22, _⟩ => ⟨S512x512, .f32⟩
  | .hbm, ⟨23, _⟩ => ⟨S512x1, .f32⟩
  | .hbm, ⟨24, _⟩ => ⟨S512x3, .f32⟩
  | .hbm, ⟨25, _⟩ => ⟨S512x512, .f32⟩
  | .hbm, ⟨26, _⟩ => ⟨S512x1, .f32⟩
  | .hbm, ⟨27, _⟩ => ⟨S1x512, .f32⟩
  | .hbm, ⟨28, _⟩ => ⟨S1x1, .f32⟩
  | .hbm, ⟨29, _⟩ => ⟨S512x3, .bf16⟩
  | .hbm, ⟨30, _⟩ => ⟨S512x3, .bf16⟩
  | .hbm, ⟨31, _⟩ => ⟨S512x512, .bf16⟩
  | .hbm, ⟨32, _⟩ => ⟨S512x3, .bf16⟩
  | .hbm, ⟨33, _⟩ => ⟨S512x512, .bf16⟩
  | .hbm, ⟨34, _⟩ => ⟨S512x3, .bf16⟩
  | .hbm, ⟨35, _⟩ => ⟨S512x512, .bf16⟩
  | .hbm, ⟨36, _⟩ => ⟨S512x3, .bf16⟩
  | .hbm, ⟨37, _⟩ => ⟨S512x512, .bf16⟩
  | .hbm, ⟨38, _⟩ => ⟨S512x3, .bf16⟩
  | .hbm, ⟨39, _⟩ => ⟨S512x512, .bf16⟩
  | .hbm, ⟨40, _⟩ => ⟨S512x3, .bf16⟩
  | .hbm, ⟨41, _⟩ => ⟨S512x512, .bf16⟩
  | .hbm, ⟨42, _⟩ => ⟨S512x3, .bf16⟩
  | .hbm, ⟨43, _⟩ => ⟨S512x512, .bf16⟩
  | .hbm, ⟨44, _⟩ => ⟨S512x3, .bf16⟩
  | .hbm, ⟨45, _⟩ => ⟨S512x512, .bf16⟩
  | .hbm, ⟨46, _⟩ => ⟨S1x512, .bf16⟩
  | .hbm, ⟨47, _⟩ => ⟨S1x65536, .f32⟩
  | .local _ .vmem, ⟨0, _⟩ => ⟨S3x1024, .f32⟩
  | .local _ .vmem, ⟨1, _⟩ => ⟨S3x1024, .f32⟩
  | .local _ .vmem, ⟨2, _⟩ => ⟨S512x3, .bf16⟩
  | .local _ .vmem, ⟨3, _⟩ => ⟨S512x1, .f32⟩
  | .local _ .vmem, ⟨4, _⟩ => ⟨S512x3, .bf16⟩
  | .local _ .vmem, ⟨5, _⟩ => ⟨S512x512, .bf16⟩
  | .local _ .vmem, ⟨6, _⟩ => ⟨S512x1, .f32⟩
  | .local _ .vmem, ⟨7, _⟩ => ⟨S512x3, .bf16⟩
  | .local _ .vmem, ⟨8, _⟩ => ⟨S512x512, .bf16⟩
  | .local _ .vmem, ⟨9, _⟩ => ⟨S512x1, .f32⟩
  | .local _ .vmem, ⟨10, _⟩ => ⟨S512x3, .bf16⟩
  | .local _ .vmem, ⟨11, _⟩ => ⟨S512x512, .bf16⟩
  | .local _ .vmem, ⟨12, _⟩ => ⟨S512x1, .f32⟩
  | .local _ .vmem, ⟨13, _⟩ => ⟨S512x3, .bf16⟩
  | .local _ .vmem, ⟨14, _⟩ => ⟨S512x512, .bf16⟩
  | .local _ .vmem, ⟨15, _⟩ => ⟨S512x1, .f32⟩
  | .local _ .vmem, ⟨16, _⟩ => ⟨S512x3, .bf16⟩
  | .local _ .vmem, ⟨17, _⟩ => ⟨S512x512, .bf16⟩
  | .local _ .vmem, ⟨18, _⟩ => ⟨S512x1, .f32⟩
  | .local _ .vmem, ⟨19, _⟩ => ⟨S512x3, .bf16⟩
  | .local _ .vmem, ⟨20, _⟩ => ⟨S512x512, .bf16⟩
  | .local _ .vmem, ⟨21, _⟩ => ⟨S512x1, .f32⟩
  | .local _ .vmem, ⟨22, _⟩ => ⟨S512x3, .bf16⟩
  | .local _ .vmem, ⟨23, _⟩ => ⟨S512x512, .bf16⟩
  | .local _ .vmem, ⟨24, _⟩ => ⟨S512x1, .f32⟩
  | .local _ .vmem, ⟨25, _⟩ => ⟨S512x3, .bf16⟩
  | .local _ .vmem, ⟨26, _⟩ => ⟨S512x512, .bf16⟩
  | .local _ .vmem, ⟨27, _⟩ => ⟨S512x1, .f32⟩
  | .local _ .vmem, ⟨28, _⟩ => ⟨S1x512, .bf16⟩
  | .local _ .vmem, ⟨29, _⟩ => ⟨S1x1, .f32⟩
  | .local _ .vmem, ⟨30, _⟩ => ⟨S1x1024, .f32⟩
  | .local _ .vmem, ⟨31, _⟩ => ⟨S1x1024, .f32⟩
  | _, _ => ⟨S3x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x3 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x3 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x3 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x3 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x3 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x512 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

class Facts₀ : Prop where
  bitsLt_bf16_f32 : FTy.bits .bf16 < FTy.bits .f32
  inb_S3x1024_S3x1024_0_0 : ∀ a, (![0, 0] : Fin 2 → Nat) a + S3x1024.size a ≤ S3x1024.size a
  h_S3x1024 : 0 < S3x1024.numel
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S512x1_S512x1_0_0 : ∀ a, (![0, 0] : Fin 2 → Nat) a + S512x1.size a ≤ S512x1.size a
  h_S512x1 : 0 < S512x1.numel
  broadcasts_S512x1_S512x1024 : S512x1.Broadcasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  dot_S512x3_S3x1024_S512x1024_1_0_0_1_n_n_wf : DotDims.WF S512x3 S3x1024 S512x1024 [1] [0] [0] [1] [] []
  dot_S512x512_S512x1024_S512x1024_1_0_0_1_n_n_wf : DotDims.WF S512x512 S512x1024 S512x1024 [1] [0] [0] [1] [] []
  dot_S1x512_S512x1024_S1x1024_1_0_0_1_n_n_wf : DotDims.WF S1x512 S512x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1024.size a ≤ S3x65536.size a
  hwx0_0 : ∀ i : grid0.Coords, EltTy.bits .f32 = 32 ∨ (Rect.block (s := S3x65536) S3x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S512x3.size a
  hwx0_1 : ∀ i : grid0.Coords, EltTy.bits .bf16 = 32 ∨ (Rect.block (s := S512x3) S512x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S512x3.size a
  hwx0_3 : ∀ i : grid0.Coords, EltTy.bits .bf16 = 32 ∨ (Rect.block (s := S512x3) S512x3.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x3.size a ≤ S512x3.size a
  hwx0_6 : ∀ i : grid0.Coords, EltTy.bits .bf16 = 32 ∨ (Rect.block (s := S512x3) S512x3.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x3.size a ≤ S512x3.size a
  hwx0_9 : ∀ i : grid0.Coords, EltTy.bits .bf16 = 32 ∨ (Rect.block (s := S512x3) S512x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S512x1.size a
  hwx0_11 : ∀ i : grid0.Coords, EltTy.bits .f32 = 32 ∨ (Rect.block (s := S512x1) S512x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x3.size a ≤ S512x3.size a
  hwx0_12 : ∀ i : grid0.Coords, EltTy.bits .bf16 = 32 ∨ (Rect.block (s := S512x3) S512x3.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S512x1.size a
  hwx0_14 : ∀ i : grid0.Coords, EltTy.bits .f32 = 32 ∨ (Rect.block (s := S512x1) S512x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x3.size a ≤ S512x3.size a
  hwx0_15 : ∀ i : grid0.Coords, EltTy.bits .bf16 = 32 ∨ (Rect.block (s := S512x3) S512x3.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S512x1.size a
  hwx0_17 : ∀ i : grid0.Coords, EltTy.bits .f32 = 32 ∨ (Rect.block (s := S512x1) S512x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x3.size a ≤ S512x3.size a
  hwx0_18 : ∀ i : grid0.Coords, EltTy.bits .bf16 = 32 ∨ (Rect.block (s := S512x3) S512x3.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .bf16 = 32 ∨ (Rect.block (s := S512x512) S512x512.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x1.size a ≤ S512x1.size a
  hwx0_20 : ∀ i : grid0.Coords, EltTy.bits .f32 = 32 ∨ (Rect.block (s := S512x1) S512x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x3.size a ≤ S512x3.size a
  hwx0_21 : ∀ i : grid0.Coords, EltTy.bits .bf16 = 32 ∨ (Rect.block (s := S512x3) S512x3.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .bf16 = 32 ∨ (Rect.block (s := S512x512) S512x512.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x1.size a ≤ S512x1.size a
  hwx0_23 : ∀ i : grid0.Coords, EltTy.bits .f32 = 32 ∨ (Rect.block (s := S512x1) S512x1.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512x3.size a ≤ S512x3.size a
  hwx0_24 : ∀ i : grid0.Coords, EltTy.bits .bf16 = 32 ∨ (Rect.block (s := S512x3) S512x3.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S512x512.size a ≤ S512x512.size a
  hwx0_25 : ∀ i : grid0.Coords, EltTy.bits .bf16 = 32 ∨ (Rect.block (s := S512x512) S512x512.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S512x1.size a ≤ S512x1.size a
  hwx0_26 : ∀ i : grid0.Coords, EltTy.bits .f32 = 32 ∨ (Rect.block (s := S512x1) S512x1.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x512.size a ≤ S1x512.size a
  hwx0_27 : ∀ i : grid0.Coords, EltTy.bits .bf16 = 32 ∨ (Rect.block (s := S1x512) S1x512.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x1.size a ≤ S1x1.size a
  hwx0_28 : ∀ i : grid0.Coords, EltTy.bits .f32 = 32 ∨ (Rect.block (s := S1x1) S1x1.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1x1024.size a ≤ S1x65536.size a
  hwx0_29 : ∀ i : grid0.Coords, EltTy.bits .f32 = 32 ∨ (Rect.block (s := S1x65536) S1x1024.size (cc0_transform_29 i) (hinb0_29 i)).WholeWords (EltTy.packing .f32)

variable [Facts₀]

def dot_S512x3_S3x1024_S512x1024_1_0_0_1_n_n : DotDims S512x3 S3x1024 S512x1024 where
  lhsContracting := [1]
  rhsContracting := [0]
  lhsNonContracting := [0]
  rhsNonContracting := [1]
  lhsBatch := []
  rhsBatch := []
  wf := dot_S512x3_S3x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_arg0) S3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S512x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S512x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S512x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S512x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S512x3.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v12) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S512x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v13) S512x3.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v14) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S512x1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v15) S512x3.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v16) S512x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S512x1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v17) S1x512.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S1x1.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v18) S1x1024.size cc0_transform_29 reads0_29 true false 2 stage0_29 sem0_29
    hrank0 hreads0_29 hinb0_29 nbuf0_29 (Memref.isWhole_whole _) hwx0_29 hstage0_29

abbrev win0 : Fin 30 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | ⟨_ + 30, h⟩ => absurd h (Nat.not_lt.2 (Nat.le_add_left _ _))
abbrev spec0 : Fin 30 → Pipeline.WinSpec sig grid0.rank := fun w => (win0 w).toWinSpec

class Facts : Prop extends Facts₀ where

variable [Facts]
-- ==== ReferenceIdeal.lean ====
abbrev S3x65536 : Shape := ⟨2, ![3, 65536]⟩
abbrev S512x3 : Shape := ⟨2, ![512, 3]⟩
abbrev S512x1 : Shape := ⟨2, ![512, 1]⟩
abbrev S512x512 : Shape := ⟨2, ![512, 512]⟩
abbrev S1x512 : Shape := ⟨2, ![1, 512]⟩
abbrev S1x1 : Shape := ⟨2, ![1, 1]⟩
abbrev S512x65536 : Shape := ⟨2, ![512, 65536]⟩
abbrev S_ : Shape := ⟨0, ![]⟩
abbrev S1x65536 : Shape := ⟨2, ![1, 65536]⟩

abbrev nBuf : Space → Nat
  | .hbm => 98
  | .vmem => 0
  | .smem => 0
  | _ => 0

abbrev bufTy : (tb : Table) → Fin (tcTables nBuf tb) → BufTy
  | .hbm, ⟨0, _⟩ => ⟨S3x65536, .f32⟩
  | .hbm, ⟨1, _⟩ => ⟨S512x3, .f32⟩
  | .hbm, ⟨2, _⟩ => ⟨S512x1, .f32⟩
  | .hbm, ⟨3, _⟩ => ⟨S512x3, .f32⟩
  | .hbm, ⟨4, _⟩ => ⟨S512x512, .f32⟩
  | .hbm, ⟨5, _⟩ => ⟨S512x1, .f32⟩
  | .hbm, ⟨6, _⟩ => ⟨S512x3, .f32⟩
  | .hbm, ⟨7, _⟩ => ⟨S512x512, .f32⟩
  | .hbm, ⟨8, _⟩ => ⟨S512x1, .f32⟩
  | .hbm, ⟨9, _⟩ => ⟨S512x3, .f32⟩
  | .hbm, ⟨10, _⟩ => ⟨S512x512, .f32⟩
  | .hbm, ⟨11, _⟩ => ⟨S512x1, .f32⟩
  | .hbm, ⟨12, _⟩ => ⟨S512x3, .f32⟩
  | .hbm, ⟨13, _⟩ => ⟨S512x512, .f32⟩
  | .hbm, ⟨14, _⟩ => ⟨S512x1, .f32⟩
  | .hbm, ⟨15, _⟩ => ⟨S512x3, .f32⟩
  | .hbm, ⟨16, _⟩ => ⟨S512x512, .f32⟩
  | .hbm, ⟨17, _⟩ => ⟨S512x1, .f32⟩
  | .hbm, ⟨18, _⟩ => ⟨S512x3, .f32⟩
  | .hbm, ⟨19, _⟩ => ⟨S512x512, .f32⟩
  | .hbm, ⟨20, _⟩ => ⟨S512x1, .f32⟩
  | .hbm, ⟨21, _⟩ => ⟨S512x3, .f32⟩
  | .hbm, ⟨22, _⟩ => ⟨S512x512, .f32⟩
  | .hbm, ⟨23, _⟩ => ⟨S512x1, .f32⟩
  | .hbm, ⟨24, _⟩ => ⟨S512x3, .f32⟩
  | .hbm, ⟨25, _⟩ => ⟨S512x512, .f32⟩
  | .hbm, ⟨26, _⟩ => ⟨S512x1, .f32⟩
  | .hbm, ⟨27, _⟩ => ⟨S1x512, .f32⟩
  | .hbm, ⟨28, _⟩ => ⟨S1x1, .f32⟩
  | .hbm, ⟨29, _⟩ => ⟨S512x65536, .f32⟩
  | .hbm, ⟨30, _⟩ => ⟨S512x65536, .f32⟩
  | .hbm, ⟨31, _⟩ => ⟨S512x65536, .f32⟩
  | .hbm, ⟨32, _⟩ => ⟨S512x65536, .f32⟩
  | .hbm, ⟨33, _⟩ => ⟨S512x65536, .f32⟩
  | .hbm, ⟨34, _⟩ => ⟨S512x65536, .f32⟩
  | .hbm, ⟨35, _⟩ => ⟨S512x65536, .f32⟩
  | .hbm, ⟨36, _⟩ => ⟨S512x65536, .f32⟩
  | .hbm, ⟨37, _⟩ => ⟨S512x65536, .f32⟩
  | .hbm, ⟨38, _⟩ => ⟨S512x65536, .f32⟩
  | .hbm, ⟨39, _⟩ => ⟨S512x65536, .f32⟩
  | .hbm, ⟨40, _⟩ => ⟨S512x65536, .f32⟩
  | .hbm, ⟨41, _⟩ => ⟨S512x65536, .f32⟩
  | .hbm, ⟨42, _⟩ => ⟨S512x65536, .f32⟩
  | .hbm, ⟨43, _⟩ => ⟨S512x65536, .f32⟩
  | .hbm, ⟨44, _⟩ => ⟨S512x65536, .f32⟩
  | .hbm, ⟨45, _⟩ => ⟨S512x65536, .f32⟩
  | .hbm, ⟨46, _⟩ => ⟨S512x65536, .f32⟩
  | .hbm, ⟨47, _⟩ => ⟨S512x65536, .f32⟩
  | .hbm, ⟨48, _⟩ => ⟨S512x65536, .f32⟩
  | .hbm, ⟨49, _⟩ => ⟨S512x65536, .f32⟩
  | .hbm, ⟨50, _⟩ => ⟨S512x65536, .f32⟩
  | .hbm, ⟨51, _⟩ => ⟨S512x65536, .f32⟩
  | .hbm, ⟨52, _⟩ => ⟨S512x65536, .f32⟩
  | .hbm, ⟨53, _⟩ => ⟨S512x65536, .f32⟩
  | .hbm, ⟨54, _⟩ => ⟨S512x65536, .f32⟩
  | .hbm, ⟨55, _⟩ => ⟨S512x65536, .f32⟩
  | .hbm, ⟨56, _⟩ => ⟨S512x65536, .f32⟩
  | .hbm, ⟨57, _⟩ => ⟨S512x65536, .f32⟩
  | .hbm, ⟨58, _⟩ => ⟨S_, .f32⟩
  | .hbm, ⟨59, _⟩ => ⟨S512x65536, .f32⟩
  | .hbm, ⟨60, _⟩ => ⟨S512x65536, .f32⟩
  | .hbm, ⟨61, _⟩ => ⟨S512x65536, .f32⟩
  | .hbm, ⟨62, _⟩ => ⟨S512x65536, .f32⟩
  | .hbm, ⟨63, _⟩ => ⟨S512x65536, .f32⟩
  | .hbm, ⟨64, _⟩ => ⟨S512x65536, .f32⟩
  | .hbm, ⟨65, _⟩ => ⟨S512x65536, .f32⟩
  | .hbm, ⟨66, _⟩ => ⟨S512x65536, .f32⟩
  | .hbm, ⟨67, _⟩ => ⟨S512x65536, .f32⟩
  | .hbm, ⟨68, _⟩ => ⟨S512x65536, .f32⟩
  | .hbm, ⟨69, _⟩ => ⟨S512x65536, .f32⟩
  | .hbm, ⟨70, _⟩ => ⟨S512x65536, .f32⟩
  | .hbm, ⟨71, _⟩ => ⟨S512x65536, .f32⟩
  | .hbm, ⟨72, _⟩ => ⟨S512x65536, .f32⟩
  | .hbm, ⟨73, _⟩ => ⟨S512x65536, .f32⟩
  | .hbm, ⟨74, _⟩ => ⟨S512x65536, .f32⟩
  | .hbm, ⟨75, _⟩ => ⟨S512x65536, .f32⟩
  | .hbm, ⟨76, _⟩ => ⟨S512x65536, .f32⟩
  | .hbm, ⟨77, _⟩ => ⟨S512x65536, .f32⟩
  | .hbm, ⟨78, _⟩ => ⟨S512x65536, .f32⟩
  | .hbm, ⟨79, _⟩ => ⟨S512x65536, .f32⟩
  | .hbm, ⟨80, _⟩ => ⟨S512x65536, .f32⟩
  | .hbm, ⟨81, _⟩ => ⟨S512x65536, .f32⟩
  | .hbm, ⟨82, _⟩ => ⟨S512x65536, .f32⟩
  | .hbm, ⟨83, _⟩ => ⟨S512x65536, .f32⟩
  | .hbm, ⟨84, _⟩ => ⟨S512x65536, .f32⟩
  | .hbm, ⟨85, _⟩ => ⟨S512x65536, .f32⟩
  | .hbm, ⟨86, _⟩ => ⟨S512x65536, .f32⟩
  | .hbm, ⟨87, _⟩ => ⟨S512x65536, .f32⟩
  | .hbm, ⟨88, _⟩ => ⟨S512x65536, .f32⟩
  | .hbm, ⟨89, _⟩ => ⟨S_, .f32⟩
  | .hbm, ⟨90, _⟩ => ⟨S512x65536, .f32⟩
  | .hbm, ⟨91, _⟩ => ⟨S512x65536, .f32⟩
  | .hbm, ⟨92, _⟩ => ⟨S512x65536, .f32⟩
  | .hbm, ⟨93, _⟩ => ⟨S512x65536, .f32⟩
  | .hbm, ⟨94, _⟩ => ⟨S512x65536, .f32⟩
  | .hbm, ⟨95, _⟩ => ⟨S1x65536, .f32⟩
  | .hbm, ⟨96, _⟩ => ⟨S1x65536, .f32⟩
  | .hbm, ⟨97, _⟩ => ⟨S1x65536, .f32⟩
  | _, _ => ⟨S3x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]

class Facts₀ : Prop where
  bcast_S512x1_S512x65536_0_1 : S512x1.BroadcastsInDim S512x65536 (![0, 1] : Fin 2 → Fin S512x65536.rank)
  bcast_S_S512x65536 : S_.BroadcastsInDim S512x65536 (![] : Fin 0 → Fin S512x65536.rank)
  bcast_S1x1_S1x65536_0_1 : S1x1.BroadcastsInDim S1x65536 (![0, 1] : Fin 2 → Fin S1x65536.rank)
  dot_S512x3_S3x65536_S512x65536_1_0_0_1_n_n_wf : DotDims.WF S512x3 S3x65536 S512x65536 [1] [0] [0] [1] [] []
  dot_S512x512_S512x65536_S512x65536_1_0_0_1_n_n_wf : DotDims.WF S512x512 S512x65536 S512x65536 [1] [0] [0] [1] [] []
  dot_S1x512_S512x65536_S1x65536_1_0_0_1_n_n_wf : DotDims.WF S1x512 S512x65536 S1x65536 [1] [0] [0] [1] [] []

variable [Facts₀]

def dot_S512x3_S3x65536_S512x65536_1_0_0_1_n_n : DotDims S512x3 S3x65536 S512x65536 where
  lhsContracting := [1]
  rhsContracting := [0]
  lhsNonContracting := [0]
  rhsNonContracting := [1]
  lhsBatch := []
  rhsBatch := []
  wf := dot_S512x3_S3x65536_S512x65536_1_0_0_1_n_n_wf
def dot_S512x512_S512x65536_S512x65536_1_0_0_1_n_n : DotDims S512x512 S512x65536 S512x65536 where
  lhsContracting := [1]
  rhsContracting := [0]
  lhsNonContracting := [0]
  rhsNonContracting := [1]
  lhsBatch := []
  rhsBatch := []
  wf := dot_S512x512_S512x65536_S512x65536_1_0_0_1_n_n_wf
def dot_S1x512_S512x65536_S1x65536_1_0_0_1_n_n : DotDims S1x512 S512x65536 S1x65536 where
  lhsContracting := [1]
  rhsContracting := [0]
  lhsNonContracting := [0]
  rhsNonContracting := [1]
  lhsBatch := []
  rhsBatch := []
  wf := dot_S1x512_S512x65536_S1x65536_1_0_0_1_n_n_wf

class Facts : Prop extends Facts₀ where

variable [Facts]
-- ==== Proof.GatedColumn.lean ====
/-
  The network computed on ONE COLUMN of the input, on the extended reals.

  The input is a matrix x of 3 rows; every column of it is pushed, independently of the others, through
  a first layer and two gated blocks of width 512 and read out by one row of weights:

      S1      = tanh (W1 x + b1)
      gate    = tanh ((U x + W S) + b)                      for the update (z), carry (g) and reset (r) gates
      H       = tanh ((Uh x + Wh (S * R)) + bh)             the candidate, from the reset state
      S'      = (1 - G) * H + Z * S                         one block
      out     = W S3 + b

  A matrix times a column is the finite sum over the contracted coordinate; a bias is a column [512, 1]
  read at (r, 0).  Nothing here mentions a tile of the columns: entry n of the result is a function of
  column n of x alone, and that is what lets any tiling of the columns compute it.
-/
import Idealize.ShloMosaic.PureOps.Ideal
import Idealize.ShloMosaic.Lib.ValueIdx

noncomputable section

open scoped BigOperators

namespace Cert.GatedColumn

open Idealize.ShloMosaic Idealize.ShloMosaic.ValueIdx

/-- Weights applied to the input column: [512, 3]. -/
abbrev InW := (⟨2, ![512, 3]⟩ : Shape).Idx → EReal
/-- Weights applied to a hidden state: [512, 512]. -/
abbrev HidW := (⟨2, ![512, 512]⟩ : Shape).Idx → EReal
/-- A bias, kept as a column: [512, 1]. -/
abbrev Bias := (⟨2, ![512, 1]⟩ : Shape).Idx → EReal
/-- The readout row: [1, 512]. -/
abbrev OutW := (⟨2, ![1, 512]⟩ : Shape).Idx → EReal
/-- The readout bias: [1, 1]. -/
abbrev OutB := (⟨2, ![1, 1]⟩ : Shape).Idx → EReal
/-- An input column, and a hidden state. -/
abbrev Col3 := Fin 3 → EReal
abbrev State := Fin 512 → EReal

/-- The number one, as both programs write it: the binary32 word of 1.0. -/
def one : EReal := Ideal.ofBits .f32 0x3F800000#32

/-- Row r of a [512, 3] matrix times the input column. -/
def inProj (U : InW) (xc : Col3) (r : Fin 512) : EReal := ∑ k : Fin 3, U (ix2 r k) * xc k

/-- Row r of a [512, 512] matrix times a hidden state. -/
def hidProj (W : HidW) (s : State) (r : Fin 512) : EReal := ∑ k : Fin 512, W (ix2 r k) * s k

/-- The first layer: tanh (W1 x + b1). -/
def first (W1 : InW) (b1 : Bias) (xc : Col3) : State :=
  fun r => Ideal.tanh (inProj W1 xc r + b1 (ix2 r (0 : Fin 1)))

/-- One gate: tanh ((U x + W s) + b), the two products added first. -/
def gate (U : InW) (W : HidW) (b : Bias) (xc : Col3) (s : State) : State :=
  fun r => Ideal.tanh (inProj U xc r + hidProj W s r + b (ix2 r (0 : Fin 1)))

/-- The twelve arrays of one gated block. -/
structure Block where
  Uz : InW
  Wz : HidW
  bz : Bias
  Ug : InW
  Wg : HidW
  bg : Bias
  Ur : InW
  Wr : HidW
  br : Bias
  Uh : InW
  Wh : HidW
  bh : Bias

/-- One gated block: (1 - G) * H + Z * S, the candidate H computed from the state times the reset gate. -/
def Block.step (B : Block) (xc : Col3) (s : State) : State :=
  fun r =>
    (one - gate B.Ug B.Wg B.bg xc s r)
        * gate B.Uh B.Wh B.bh xc (fun k => s k * gate B.Ur B.Wr B.br xc s k) r
      + gate B.Uz B.Wz B.bz xc s r * s r

/-- The readout: one row of weights times the last state, plus the scalar bias. -/
def readout (W : OutW) (b : OutB) (s : State) : EReal :=
  ∑ k : Fin 512, W (ix2 (0 : Fin 1) k) * s k + b (ix2 (0 : Fin 1) (0 : Fin 1))

/-- Every array of the network but the input. -/
structure Params where
  W1 : InW
  b1 : Bias
  B1 : Block
  B2 : Block
  W : OutW
  b : OutB

/-- The network on one column. -/
def Params.net (P : Params) (xc : Col3) : EReal :=
  readout P.W P.b (P.B2.step xc (P.B1.step xc (first P.W1 P.b1 xc)))

/-- Column n of a matrix of 3 rows. -/
def column {N : Nat} (x : (⟨2, ![3, N]⟩ : Shape).Idx → EReal) (n : Fin N) : Col3 := fun k => x (ix2 k n)

/-- The network applied to every column: the [1, N] row whose entry n is the network on column n. -/
def Params.onColumns (P : Params) {N : Nat} (x : (⟨2, ![3, N]⟩ : Shape).Idx → EReal) :
    (⟨2, ![1, N]⟩ : Shape).Idx → EReal :=
  fun i => P.net (column x (i 1))

theorem Params.onColumns_apply (P : Params) {N : Nat} (x : (⟨2, ![3, N]⟩ : Shape).Idx → EReal) (n : Fin N) :
    P.onColumns x (ix2 (0 : Fin 1) n) = P.net (column x n) := rfl

end Cert.GatedColumn

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.TileColumns.lean ====
/-
  What one tile of 1024 columns computes, column by column.

  The kernel body works on a [3, 1024] tile of the input and builds [512, 1024] arrays from it.  Each such
  array is read through its columns: column q of the array is a hidden state, a function of column q of
  the tile alone.  A product with the zero accumulator is the plain sum over the contracted coordinate, a
  bias column is broadcast along the 1024 columns, and a change of float format is the identity on the
  extended reals; so the first layer, every gate, each block's update and the readout are, column by
  column, the functions of the specification.
-/
import proofs.«102482_j26800595927155_1_alg».proof.Proof.Gen.KernelIdeal.Skeleton
import proofs.«102482_j26800595927155_1_alg».proof.Proof.GatedColumn
import proofs.«102482_j26800595927155_1_alg».proof.Proof.LibPlainDot
import proofs.«102482_j26800595927155_1_alg».proof.Proof.LibKeepdims
import Idealize.ShloMosaic.Lib.Pipeline.Value
import Idealize.ShloMosaic.Lib.ValueIdx

noncomputable section

open scoped BigOperators

namespace Cert.KernelIdeal.Tile

open Idealize.ShloMosaic Idealize.ShloMosaic.ValueIdx
open Cert.KernelIdeal Cert.KernelIdeal.Gen Cert.GatedColumn Cert.Lib.PlainDot

variable [Cert.KernelIdeal.Facts]

/-! ## The three products are plain products -/

theorem plain_in : Plain dot_S512x3_S3x1024_S512x1024_1_0_0_1_n_n := ⟨rfl, rfl, rfl, rfl, rfl, rfl⟩
theorem plain_hid : Plain dot_S512x512_S512x1024_S512x1024_1_0_0_1_n_n := ⟨rfl, rfl, rfl, rfl, rfl, rfl⟩
theorem plain_out : Plain dot_S1x512_S512x1024_S1x1024_1_0_0_1_n_n := ⟨rfl, rfl, rfl, rfl, rfl, rfl⟩

/-- A tile array [512, 1024] holds the states `σ`: its column q is `σ q`. -/
def Holds (A : S512x1024.Idx → EReal) (σ : Fin 1024 → State) : Prop :=
  ∀ (r : Fin 512) (q : Fin 1024), A (ix2 r q) = σ q r

theorem Holds.col {A : S512x1024.Idx → EReal} {σ : Fin 1024 → State} (h : Holds A σ) (q : Fin 1024) :
    (fun k : Fin 512 => A (ix2 k q)) = σ q := funext fun k => h k q

/-- Input weights times the tile, into zero: row r against column q of the tile. -/
theorem in_dot (u : FVec Ideal S512x3 .bf16) (xb : FVec Ideal S3x1024 .bf16) (r : Fin 512) (q : Fin 1024) :
    matmul dot_S512x3_S3x1024_S512x1024_1_0_0_1_n_n none u xb (constant S512x1024 .f32 0x00000000#32) (ix2 r q)
      = inProj u (column xb q) r :=
  matmul_zero_apply plain_in none u xb (ix2 r q)

/-- Hidden weights times a tile array, into zero: row r against column q of the array. -/
theorem hid_dot (w : FVec Ideal S512x512 .bf16) (sb : FVec Ideal S512x1024 .bf16) (r : Fin 512) (q : Fin 1024) :
    matmul dot_S512x512_S512x1024_S512x1024_1_0_0_1_n_n none w sb (constant S512x1024 .f32 0x00000000#32) (ix2 r q)
      = hidProj w (fun k => sb (ix2 k q)) r :=
  matmul_zero_apply plain_hid none w sb (ix2 r q)

/-- A bias column broadcast along the tile's columns. -/
theorem bias_col (b : Vec Ideal S512x1 .f32) (h : S512x1.Broadcasts S512x1024) (r : Fin 512) (q : Fin 1024) :
    broadcastTo S512x1024 b h (ix2 r q) = b (ix2 r (0 : Fin 1)) :=
  Cert.LibKeepdims.broadcastTo_a1_ab_apply b h r q

/-! ## The first layer and a gate on a tile -/

/-- The zero array a product accumulates into. -/
abbrev zeroTile : FVec Ideal S512x1024 .f32 := constant S512x1024 .f32 0x00000000#32

/-- The first layer's tile array holds `first` of each column of the tile. -/
theorem first_tile (u : FVec Ideal S512x3 .bf16) (b : Vec Ideal S512x1 .f32) (xb : FVec Ideal S3x1024 .bf16)
    (h3 : S512x1.Broadcasts S512x1024) :
    Holds (tanh (F := Ideal) (addf (matmul dot_S512x3_S3x1024_S512x1024_1_0_0_1_n_n none u xb zeroTile)
        (broadcastTo S512x1024 b h3)))
      (fun q => first u b (column xb q)) := by
  intro r q
  show Ideal.tanh (matmul dot_S512x3_S3x1024_S512x1024_1_0_0_1_n_n none u xb zeroTile (ix2 r q)
      + broadcastTo S512x1024 b h3 (ix2 r q)) = _
  rw [in_dot, bias_col]
  rfl

/-- The tile array of a gate over the tile array `sb`. -/
abbrev gateTile (u : FVec Ideal S512x3 .bf16) (w : FVec Ideal S512x512 .bf16) (b : Vec Ideal S512x1 .f32)
    (h3 : S512x1.Broadcasts S512x1024) (xb : FVec Ideal S3x1024 .bf16) (sb : FVec Ideal S512x1024 .bf16) :
    FVec Ideal S512x1024 .f32 :=
  tanh (addf (addf (matmul dot_S512x3_S3x1024_S512x1024_1_0_0_1_n_n none u xb zeroTile)
      (matmul dot_S512x512_S512x1024_S512x1024_1_0_0_1_n_n none w sb zeroTile))
    (broadcastTo S512x1024 b h3))

/-- A gate's tile array, over a tile array holding `σ`, holds `gate` of each column and its state. -/
theorem gate_tile (u : FVec Ideal S512x3 .bf16) (w : FVec Ideal S512x512 .bf16) (b : Vec Ideal S512x1 .f32)
    (h3 : S512x1.Broadcasts S512x1024) (xb : FVec Ideal S3x1024 .bf16) (sb : FVec Ideal S512x1024 .bf16)
    (σ : Fin 1024 → State) (hs : Holds sb σ) :
    Holds (gateTile u w b h3 xb sb) (fun q => gate u w b (column xb q) (σ q)) := by
  intro r q
  show Ideal.tanh (matmul dot_S512x3_S3x1024_S512x1024_1_0_0_1_n_n none u xb zeroTile (ix2 r q)
      + matmul dot_S512x512_S512x1024_S512x1024_1_0_0_1_n_n none w sb zeroTile (ix2 r q)
      + broadcastTo S512x1024 b h3 (ix2 r q)) = _
  rw [in_dot, hid_dot, bias_col, hs.col q]
  rfl

/-! ## One gated block and the readout on a tile -/

/-- The tile array of ones both blocks subtract a gate from. -/
abbrev onesTile : FVec Ideal S512x1024 .f32 := broadcast S512x1024 (Scalar.ofBits (F := Ideal) .f32 0x3F800000#32)

/-- The tile array of one gated block: the candidate's gate reads the state times the reset gate (recast to the
    narrow format, which changes nothing here), and the update mixes it with the state. The state enters twice, as
    it is (`s`) and recast (`sn`); the update gate's and the carry gate's arrays `z`, `g` are given. -/
abbrev blockTile (ur : FVec Ideal S512x3 .bf16) (wr : FVec Ideal S512x512 .bf16) (br : Vec Ideal S512x1 .f32)
    (uh : FVec Ideal S512x3 .bf16) (wh : FVec Ideal S512x512 .bf16) (bh : Vec Ideal S512x1 .f32)
    (hb : S512x1.Broadcasts S512x1024) (ht : FTy.bf16.bits < FTy.f32.bits)
    (xb : FVec Ideal S3x1024 .bf16) (s : FVec Ideal S512x1024 .f32) (sn : FVec Ideal S512x1024 .bf16)
    (z g : FVec Ideal S512x1024 .f32) : FVec Ideal S512x1024 .f32 :=
  addf (mulf (subf onesTile g) (gateTile uh wh bh hb xb (truncf .bf16 (mulf s (gateTile ur wr br hb xb sn)) ht)))
    (mulf z s)

/-- A block's tile array holds the block's `step` of each column and its state. -/
theorem block_tile (B : Block) (hb : S512x1.Broadcasts S512x1024) (ht : FTy.bf16.bits < FTy.f32.bits)
    (xb : FVec Ideal S3x1024 .bf16) (s : FVec Ideal S512x1024 .f32) (sn : FVec Ideal S512x1024 .bf16)
    (z g : FVec Ideal S512x1024 .f32) (σ : Fin 1024 → State) (hs : Holds s σ) (hsn : Holds sn σ)
    (hz : Holds z (fun q => gate B.Uz B.Wz B.bz (column xb q) (σ q)))
    (hg : Holds g (fun q => gate B.Ug B.Wg B.bg (column xb q) (σ q))) :
    Holds (blockTile B.Ur B.Wr B.br B.Uh B.Wh B.bh hb ht xb s sn z g) (fun q => B.step (column xb q) (σ q)) := by
  have hR := gate_tile B.Ur B.Wr B.br hb xb sn σ hsn
  have hsr : Holds (truncf .bf16 (mulf s (gateTile B.Ur B.Wr B.br hb xb sn)) ht)
      (fun q k => σ q k * gate B.Ur B.Wr B.br (column xb q) (σ q) k) := by
    intro r q
    show s (ix2 r q) * gateTile B.Ur B.Wr B.br hb xb sn (ix2 r q) = _
    rw [hs r q, hR r q]
  have hH := gate_tile B.Uh B.Wh B.bh hb xb _ _ hsr
  intro r q
  show (onesTile (ix2 r q) - g (ix2 r q))
        * gateTile B.Uh B.Wh B.bh hb xb (truncf .bf16 (mulf s (gateTile B.Ur B.Wr B.br hb xb sn)) ht) (ix2 r q)
      + z (ix2 r q) * s (ix2 r q) = _
  rw [hg r q, hH r q, hz r q, hs r q]
  rfl

/-- The readout row times a tile array, into zero: the row against column q of the array. -/
theorem out_dot (w : FVec Ideal S1x512 .bf16) (sn : FVec Ideal S512x1024 .bf16) (q : Fin 1024) :
    matmul dot_S1x512_S512x1024_S1x1024_1_0_0_1_n_n none w sn (constant S1x1024 .f32 0x00000000#32) (ix2 (0 : Fin 1) q)
      = ∑ k : Fin 512, w (ix2 (0 : Fin 1) k) * sn (ix2 k q) :=
  matmul_zero_apply plain_out none w sn (ix2 (0 : Fin 1) q)

/-- The readout's scalar bias broadcast along the tile's columns. -/
theorem out_bias (b : Vec Ideal S1x1 .f32) (h : S1x1.Broadcasts S1x1024) (q : Fin 1024) :
    broadcastTo S1x1024 b h (ix2 (0 : Fin 1) q) = b (ix2 (0 : Fin 1) (0 : Fin 1)) :=
  Cert.LibKeepdims.broadcastTo_a1_ab_apply b h (0 : Fin 1) q

/-! ## The body's pieces -/

section pieces

variable (v0 : Vec Ideal S3x1024 .f32) (v2 : Vec Ideal S512x3 .bf16) (v5 : Vec Ideal S512x1 .f32)

/-- The first layer's piece. -/
theorem pay3_holds : Holds (k0_pay3 (F := Ideal) v0 v2 v5) (fun q => first v2 v5 (column v0 q)) := by
  unfold k0_pay3
  simp only [shapeCast_self]
  exact first_tile v2 v5 (k0_pay2 v0) _

/-- The first block's update gate. -/
theorem pay5_holds (v10 : Vec Ideal S512x3 .bf16) (v13 : Vec Ideal S512x512 .bf16) (v17 : Vec Ideal S512x1 .f32) :
    Holds (k0_pay5 (F := Ideal) v0 v2 v5 v10 v13 v17)
      (fun q => gate v10 v13 v17 (column v0 q) (first v2 v5 (column v0 q))) := by
  unfold k0_pay5
  simp only [shapeCast_self]
  exact gate_tile v10 v13 v17 _ (k0_pay2 v0) (k0_pay4 v0 v2 v5) _ (pay3_holds v0 v2 v5)

/-- The first block's carry gate. -/
theorem pay6_holds (v21 : Vec Ideal S512x3 .bf16) (v24 : Vec Ideal S512x512 .bf16) (v28 : Vec Ideal S512x1 .f32) :
    Holds (k0_pay6 (F := Ideal) v0 v2 v5 v21 v24 v28)
      (fun q => gate v21 v24 v28 (column v0 q) (first v2 v5 (column v0 q))) := by
  unfold k0_pay6
  simp only [shapeCast_self]
  exact gate_tile v21 v24 v28 _ (k0_pay2 v0) (k0_pay4 v0 v2 v5) _ (pay3_holds v0 v2 v5)

/-- A weight block recast to its own shape is itself. -/
theorem pay7_eq (v32 : Vec Ideal S512x3 .bf16) : k0_pay7 (F := Ideal) v32 = v32 := by
  unfold k0_pay7
  exact shapeCast_self _ _

end pieces

section blocks

variable (v1 : FVec Ideal S3x1024 .bf16)

/-- A whole block's piece: over a state array (as it is and recast) and the arrays of its update and carry
    gates, it holds the block's `step`. -/
theorem pay8_holds (v8 : FVec Ideal S512x1024 .f32) (v9 : FVec Ideal S512x1024 .bf16) (v20 v31 : FVec Ideal S512x1024 .f32)
    (v33 : FVec Ideal S512x3 .bf16) (v35 : Vec Ideal S512x512 .bf16) (v39 : Vec Ideal S512x1 .f32)
    (v45 : Vec Ideal S512x3 .bf16) (v48 : Vec Ideal S512x512 .bf16) (v52 : Vec Ideal S512x1 .f32)
    (Uz : InW) (Wz : HidW) (bz : Bias) (Ug : InW) (Wg : HidW) (bg : Bias) (σ : Fin 1024 → State)
    (h8 : Holds v8 σ) (h9 : Holds v9 σ)
    (hz : Holds v20 (fun q => gate Uz Wz bz (column v1 q) (σ q)))
    (hg : Holds v31 (fun q => gate Ug Wg bg (column v1 q) (σ q))) :
    Holds (k0_pay8 (F := Ideal) v1 v8 v9 v20 v31 v33 v35 v39 v45 v48 v52)
      (fun q => (Block.mk Uz Wz bz Ug Wg bg v33 v35 v39 v45 v48 v52).step (column v1 q) (σ q)) := by
  unfold k0_pay8
  simp only [shapeCast_self]
  exact block_tile ⟨Uz, Wz, bz, Ug, Wg, bg, v33, v35, v39, v45, v48, v52⟩ _ _ v1 v8 v9 v20 v31 σ h8 h9 hz hg

/-- The second block's update gate, over the first block's state recast. -/
theorem pay12_holds (v8 : FVec Ideal S512x1024 .f32) (v9 : FVec Ideal S512x1024 .bf16) (v20 v31 : FVec Ideal S512x1024 .f32)
    (v33 : FVec Ideal S512x3 .bf16) (v35 : Vec Ideal S512x512 .bf16) (v39 : Vec Ideal S512x1 .f32)
    (v45 : Vec Ideal S512x3 .bf16) (v48 : Vec Ideal S512x512 .bf16) (v52 : Vec Ideal S512x1 .f32)
    (v62 : Vec Ideal S512x3 .bf16) (v65 : Vec Ideal S512x512 .bf16) (v69 : Vec Ideal S512x1 .f32)
    (σ : Fin 1024 → State) (h : Holds (k0_pay9 (F := Ideal) v1 v8 v9 v20 v31 v33 v35 v39 v45 v48 v52) σ) :
    Holds (k0_pay12 (F := Ideal) (k0_pay10 v1 v8 v9 v20 v31 v33 v35 v39 v45 v48 v52 v62 v65) (k0_pay11 v69))
      (fun q => gate v62 v65 v69 (column v1 q) (σ q)) := by
  unfold k0_pay12 k0_pay10 k0_pay11
  simp only [shapeCast_self]
  exact gate_tile v62 v65 v69 _ v1 (k0_pay9 v1 v8 v9 v20 v31 v33 v35 v39 v45 v48 v52) σ h

/-- The second block's carry gate. -/
theorem pay13_holds (v61 : FVec Ideal S512x1024 .bf16) (v73 : Vec Ideal S512x3 .bf16) (v76 : Vec Ideal S512x512 .bf16)
    (v80 : Vec Ideal S512x1 .f32) (σ : Fin 1024 → State) (h : Holds v61 σ) :
    Holds (k0_pay13 (F := Ideal) v1 v61 v73 v76 v80) (fun q => gate v73 v76 v80 (column v1 q) (σ q)) := by
  unfold k0_pay13
  simp only [shapeCast_self]
  exact gate_tile v73 v76 v80 _ v1 v61 σ h

/-- The readout of a tile array holding `σ`. -/
theorem readout_tile (w : FVec Ideal S1x512 .bf16) (b : Vec Ideal S1x1 .f32) (hb : S1x1.Broadcasts S1x1024)
    (sn : FVec Ideal S512x1024 .bf16) (σ : Fin 1024 → State) (hs : Holds sn σ) (q : Fin 1024) :
    addf (matmul dot_S1x512_S512x1024_S1x1024_1_0_0_1_n_n none w sn (constant S1x1024 .f32 0x00000000#32))
        (broadcastTo S1x1024 b hb) (ix2 (0 : Fin 1) q) = readout w b (σ q) := by
  show matmul dot_S1x512_S512x1024_S1x1024_1_0_0_1_n_n none w sn (constant S1x1024 .f32 0x00000000#32) (ix2 (0 : Fin 1) q)
      + broadcastTo S1x1024 b hb (ix2 (0 : Fin 1) q) = _
  rw [out_dot, out_bias]
  exact congrArg (· + b (ix2 (0 : Fin 1) (0 : Fin 1))) (Finset.sum_congr rfl fun k _ => by rw [hs k q])

/-- The stored row: the readout of the second block's `step`, the block's candidate read before its tanh. -/
theorem pay1_apply (v60 : FVec Ideal S512x1024 .f32) (v61 : FVec Ideal S512x1024 .bf16) (v72 v83 : FVec Ideal S512x1024 .f32)
    (v84 : Vec Ideal S512x3 .bf16) (v87 : Vec Ideal S512x512 .bf16) (v91 : Vec Ideal S512x1 .f32)
    (v97 : Vec Ideal S512x3 .bf16) (v100 : Vec Ideal S512x512 .bf16) (v104 : Vec Ideal S512x1 .f32)
    (v114 : Vec Ideal S1x512 .bf16) (v117 : Vec Ideal S1x1 .f32)
    (Uz : InW) (Wz : HidW) (bz : Bias) (Ug : InW) (Wg : HidW) (bg : Bias) (σ : Fin 1024 → State)
    (h60 : Holds v60 σ) (h61 : Holds v61 σ)
    (hz : Holds v72 (fun q => gate Uz Wz bz (column v1 q) (σ q)))
    (hg : Holds v83 (fun q => gate Ug Wg bg (column v1 q) (σ q))) (q : Fin 1024) :
    k0_pay1 (F := Ideal) v60 v72 v83 (k0_pay14 v1 v60 v61 v84 v87 v91 v97 v100 v104) v114 v117 (ix2 (0 : Fin 1) q)
      = readout v114 v117 ((Block.mk Uz Wz bz Ug Wg bg v84 v87 v91 v97 v100 v104).step (column v1 q) (σ q)) := by
  unfold k0_pay1 k0_pay14
  simp only [shapeCast_self]
  exact readout_tile v114 v117 _ _ _
    (block_tile ⟨Uz, Wz, bz, Ug, Wg, bg, v84, v87, v91, v97, v100, v104⟩ _ _ v1 v60 v61 v72 v83 σ h60 h61 hz hg) q

end blocks

/-! ## The whole body on a tile -/

/-- The row the body stores, at column q of the tile: the network on column q of the input tile. The
    arguments are the 29 loaded blocks in the order of the windows: the input tile, the first layer's weights and
    bias, the twelve arrays of each block, the readout row and its bias. -/
theorem out_tile (x0 : Vec Ideal S3x1024 .f32) (x1 : Vec Ideal S512x3 .bf16) (x2 : Vec Ideal S512x1 .f32) (x3 : Vec Ideal S512x3 .bf16) (x4 : Vec Ideal S512x512 .bf16) (x5 : Vec Ideal S512x1 .f32) (x6 : Vec Ideal S512x3 .bf16) (x7 : Vec Ideal S512x512 .bf16) (x8 : Vec Ideal S512x1 .f32) (x9 : Vec Ideal S512x3 .bf16) (x10 : Vec Ideal S512x512 .bf16) (x11 : Vec Ideal S512x1 .f32) (x12 : Vec Ideal S512x3 .bf16) (x13 : Vec Ideal S512x512 .bf16) (x14 : Vec Ideal S512x1 .f32) (x15 : Vec Ideal S512x3 .bf16) (x16 : Vec Ideal S512x512 .bf16) (x17 : Vec Ideal S512x1 .f32) (x18 : Vec Ideal S512x3 .bf16) (x19 : Vec Ideal S512x512 .bf16) (x20 : Vec Ideal S512x1 .f32) (x21 : Vec Ideal S512x3 .bf16) (x22 : Vec Ideal S512x512 .bf16) (x23 : Vec Ideal S512x1 .f32) (x24 : Vec Ideal S512x3 .bf16) (x25 : Vec Ideal S512x512 .bf16) (x26 : Vec Ideal S512x1 .f32) (x27 : Vec Ideal S1x512 .bf16) (x28 : Vec Ideal S1x1 .f32) (q : Fin 1024) :
    k0_pay1 (F := Ideal) (k0_pay8 (k0_pay2 x0) (k0_pay3 x0 x1 x2) (k0_pay4 x0 x1 x2) (k0_pay5 x0 x1 x2 x3 x4 x5) (k0_pay6 x0 x1 x2 x6 x7 x8) (k0_pay7 x9) x10 x11 x12 x13 x14) (k0_pay12 (k0_pay10 (k0_pay2 x0) (k0_pay3 x0 x1 x2) (k0_pay4 x0 x1 x2) (k0_pay5 x0 x1 x2 x3 x4 x5) (k0_pay6 x0 x1 x2 x6 x7 x8) (k0_pay7 x9) x10 x11 x12 x13 x14 x15 x16) (k0_pay11 x17)) (k0_pay13 (k0_pay2 x0) (k0_pay9 (k0_pay2 x0) (k0_pay3 x0 x1 x2) (k0_pay4 x0 x1 x2) (k0_pay5 x0 x1 x2 x3 x4 x5) (k0_pay6 x0 x1 x2 x6 x7 x8) (k0_pay7 x9) x10 x11 x12 x13 x14) x18 x19 x20) (k0_pay14 (k0_pay2 x0) (k0_pay8 (k0_pay2 x0) (k0_pay3 x0 x1 x2) (k0_pay4 x0 x1 x2) (k0_pay5 x0 x1 x2 x3 x4 x5) (k0_pay6 x0 x1 x2 x6 x7 x8) (k0_pay7 x9) x10 x11 x12 x13 x14) (k0_pay9 (k0_pay2 x0) (k0_pay3 x0 x1 x2) (k0_pay4 x0 x1 x2) (k0_pay5 x0 x1 x2 x3 x4 x5) (k0_pay6 x0 x1 x2 x6 x7 x8) (k0_pay7 x9) x10 x11 x12 x13 x14) x21 x22 x23 x24 x25 x26) x27 x28 (ix2 (0 : Fin 1) q)
      = (Params.mk x1 x2 (Block.mk x3 x4 x5 x6 x7 x8 x9 x10 x11 x12 x13 x14)
          (Block.mk x15 x16 x17 x18 x19 x20 x21 x22 x23 x24 x25 x26) x27 x28).net (column x0 q) := by
  rw [pay7_eq x9]
  have hS1 := pay3_holds x0 x1 x2
  have hZ1 := pay5_holds x0 x1 x2 x3 x4 x5
  have hG1 := pay6_holds x0 x1 x2 x6 x7 x8
  have hS2 := pay8_holds (k0_pay2 x0) (k0_pay3 x0 x1 x2) (k0_pay4 x0 x1 x2) (k0_pay5 x0 x1 x2 x3 x4 x5) (k0_pay6 x0 x1 x2 x6 x7 x8) x9 x10 x11 x12 x13 x14 x3 x4 x5 x6 x7 x8 _ hS1 hS1 hZ1 hG1
  have hZ2 := pay12_holds (k0_pay2 x0) (k0_pay3 x0 x1 x2) (k0_pay4 x0 x1 x2) (k0_pay5 x0 x1 x2 x3 x4 x5) (k0_pay6 x0 x1 x2 x6 x7 x8) x9 x10 x11 x12 x13 x14 x15 x16 x17 _ hS2
  have hG2 := pay13_holds (k0_pay2 x0) (k0_pay9 (k0_pay2 x0) (k0_pay3 x0 x1 x2) (k0_pay4 x0 x1 x2) (k0_pay5 x0 x1 x2 x3 x4 x5) (k0_pay6 x0 x1 x2 x6 x7 x8) x9 x10 x11 x12 x13 x14) x18 x19 x20 _ hS2
  exact pay1_apply (k0_pay2 x0) (k0_pay8 (k0_pay2 x0) (k0_pay3 x0 x1 x2) (k0_pay4 x0 x1 x2) (k0_pay5 x0 x1 x2 x3 x4 x5) (k0_pay6 x0 x1 x2 x6 x7 x8) x9 x10 x11 x12 x13 x14) (k0_pay9 (k0_pay2 x0) (k0_pay3 x0 x1 x2) (k0_pay4 x0 x1 x2) (k0_pay5 x0 x1 x2 x3 x4 x5) (k0_pay6 x0 x1 x2 x6 x7 x8) x9 x10 x11 x12 x13 x14) _ _ x21 x22 x23 x24 x25 x26 x27 x28
    x15 x16 x17 x18 x19 x20 _ hS2 hS2 hZ2 hG2 q

end Cert.KernelIdeal.Tile

end
-- ==== Proof.KernelColumns.lean ====
/-
  The kernel's result array, from its blocks.

  The region runs the body at 64 grid points.  At point t the input window holds columns 1024 t … 1024 t + 1023
  of x; every other window holds its whole array, the same at every point (the weights are recast to the narrow
  float format by host operations before the region, which changes nothing on the extended reals); and the point
  writes back columns 1024 t … 1024 t + 1023 of the result row.  The body's stored row is, at column q of the tile,
  the network on column q of the input tile.  So what point t writes back is block t of ONE row: the network on
  every column of x.  The 64 blocks cover the row, hence the result array after the run is that row.
-/
import proofs.«102482_j26800595927155_1_alg».proof.Proof.KernelIdealValue
import proofs.«102482_j26800595927155_1_alg».proof.Proof.TileColumns
import Idealize.ShloMosaic.Lib.Pipeline.Value
import Idealize.ShloMosaic.Lib.StableHlo.Run
import Idealize.ShloMosaic.Lib.ValueIdx

noncomputable section

namespace Cert.KernelIdeal.Columns

open Cert.KernelIdeal Cert.KernelIdeal.Gen Cert.KernelIdeal.GenP Cert.KernelIdeal.ValueP Cert.KernelIdeal.Tile
open Idealize.ShloMosaic Idealize.ShloMosaic.TcCoe Idealize.SL.Sem Idealize.ShloMosaic.ValueIdx
open Idealize.ShloMosaic.Pipeline (Dat)
open Cert.GatedColumn

variable (m : (ℓ : Loc nD τ sig) → Buf (Elt Ideal) ℓ) (ρ : Dev nD → PrngReg)

/-! ## The network's arrays as launched, and the row it defines -/

/-- Core c's copy of an argument array as launched. -/
abbrev arg (c : Dev nD) (b : Ref sig .tc) : Buf (Elt Ideal) ((c : Thread nD τ).loc b) := m ((c : Thread nD τ).loc b)

/-- The network's arrays, in the order of the program's arguments after x. -/
def params (c : Dev nD) : Params :=
  Params.mk (arg m c main_arg1) (arg m c main_arg2)
    (Block.mk (arg m c main_arg3) (arg m c main_arg4) (arg m c main_arg5) (arg m c main_arg6) (arg m c main_arg7) (arg m c main_arg8)
      (arg m c main_arg9) (arg m c main_arg10) (arg m c main_arg11) (arg m c main_arg12) (arg m c main_arg13) (arg m c main_arg14))
    (Block.mk (arg m c main_arg15) (arg m c main_arg16) (arg m c main_arg17) (arg m c main_arg18) (arg m c main_arg19) (arg m c main_arg20)
      (arg m c main_arg21) (arg m c main_arg22) (arg m c main_arg23) (arg m c main_arg24) (arg m c main_arg25) (arg m c main_arg26))
    (arg m c main_arg27) (arg m c main_arg28)

/-- The row the kernel's result array ends holding: the network on every column of x. -/
def result (c : Dev nD) : S1x65536.Idx → EReal := (params m c).onColumns (arg m c main_arg0)

/-! ## The recast weights are the weights -/

/-- A host cast to the narrow format before the region leaves, on the extended reals, the array it was cast from. -/
local macro "host_cast" : tactic => `(tactic| (dsimp only [V, hostOps0]; after_results; rfl))

theorem V_main_v0 (c : Dev nD) : (V m c main_v0 : S512x3.Idx → EReal) = arg m c main_arg1 := by host_cast
theorem V_main_v1 (c : Dev nD) : (V m c main_v1 : S512x3.Idx → EReal) = arg m c main_arg3 := by host_cast
theorem V_main_v2 (c : Dev nD) : (V m c main_v2 : S512x512.Idx → EReal) = arg m c main_arg4 := by host_cast
theorem V_main_v3 (c : Dev nD) : (V m c main_v3 : S512x3.Idx → EReal) = arg m c main_arg6 := by host_cast
theorem V_main_v4 (c : Dev nD) : (V m c main_v4 : S512x512.Idx → EReal) = arg m c main_arg7 := by host_cast
theorem V_main_v5 (c : Dev nD) : (V m c main_v5 : S512x3.Idx → EReal) = arg m c main_arg9 := by host_cast
theorem V_main_v6 (c : Dev nD) : (V m c main_v6 : S512x512.Idx → EReal) = arg m c main_arg10 := by host_cast
theorem V_main_v7 (c : Dev nD) : (V m c main_v7 : S512x3.Idx → EReal) = arg m c main_arg12 := by host_cast
theorem V_main_v8 (c : Dev nD) : (V m c main_v8 : S512x512.Idx → EReal) = arg m c main_arg13 := by host_cast
theorem V_main_v9 (c : Dev nD) : (V m c main_v9 : S512x3.Idx → EReal) = arg m c main_arg15 := by host_cast
theorem V_main_v10 (c : Dev nD) : (V m c main_v10 : S512x512.Idx → EReal) = arg m c main_arg16 := by host_cast
theorem V_main_v11 (c : Dev nD) : (V m c main_v11 : S512x3.Idx → EReal) = arg m c main_arg18 := by host_cast
theorem V_main_v12 (c : Dev nD) : (V m c main_v12 : S512x512.Idx → EReal) = arg m c main_arg19 := by host_cast
theorem V_main_v13 (c : Dev nD) : (V m c main_v13 : S512x3.Idx → EReal) = arg m c main_arg21 := by host_cast
theorem V_main_v14 (c : Dev nD) : (V m c main_v14 : S512x512.Idx → EReal) = arg m c main_arg22 := by host_cast
theorem V_main_v15 (c : Dev nD) : (V m c main_v15 : S512x3.Idx → EReal) = arg m c main_arg24 := by host_cast
theorem V_main_v16 (c : Dev nD) : (V m c main_v16 : S512x512.Idx → EReal) = arg m c main_arg25 := by host_cast
theorem V_main_v17 (c : Dev nD) : (V m c main_v17 : S1x512.Idx → EReal) = arg m c main_arg27 := by host_cast

/-! ## The index maps, decided over the 64 points -/

/-- Every window but the input's and the result's sits at block (0, 0) at every point. -/
theorem idx_zero : ∀ (t : Fin cfg0.N) (w : Fin 30), w ≠ 0 → w ≠ 29 → ∀ a, (win0 w).index t a = 0 :=
  (by decide +kernel : ∀ (t : Fin grid0.N) (w : Fin 30), w ≠ 0 → w ≠ 29 → ∀ a, (win0 w).index t a = 0)

/-- The input's and the result's windows move together along the columns and stay in row block 0. -/
theorem idx_io : ∀ t : Fin cfg0.N, win0_0.index t (0 : Fin 2) = 0
    ∧ win0_0.index t (1 : Fin 2) = win0_29.index t (1 : Fin 2) ∧ win0_29.index t (0 : Fin 2) = 0 :=
  (by decide +kernel : ∀ t : Fin grid0.N, _)

/-- Every column block of the result is some point's. -/
theorem idx_onto : ∀ q1 : Fin 64, ∃ t : Fin cfg0.N, win0_29.index t = ![0, q1.val] :=
  (by decide +kernel : ∀ q1 : Fin 64, ∃ t : Fin grid0.N, win0_29.index t = ![0, q1.val])

/-! ## A window at block (0, 0) of its own size holds its whole array -/

/-- The block's embedding into the array is index × size + the coordinate inside the block; at index 0 that is
    the coordinate itself, so the block read through the window is the array. -/
local macro "whole_block" m:ident c:ident t:ident "," w:num "," ref:ident "," vlem:ident "," win:ident "," S:ident : tactic =>
  `(tactic| (
    funext y
    show V $m $c $ref (((cfg0.win $w).blk $t).view.emb y) = _
    rw [$vlem:ident]
    refine congrArg _ (funext fun a => Fin.ext ?_)
    show ($win).index $t a * ($S).size a + 1 * (y a).val = (y a).val
    have h : ($win).index $t a = 0 := idx_zero $t $w (by decide) (by decide) a
    rw [h, Nat.zero_mul, Nat.one_mul, Nat.zero_add]))

section wholeBlocks
variable (c : Dev nD) (t : Fin cfg0.N)

theorem blk1 : (iblk m c 1 t : S512x3.Idx → EReal) = arg m c main_arg1 := by whole_block m c t, 1, main_v0, V_main_v0, win0_1, S512x3
theorem blk2 : (iblk m c 2 t : S512x1.Idx → EReal) = arg m c main_arg2 := by whole_block m c t, 2, main_arg2, V_main_arg2, win0_2, S512x1
theorem blk3 : (iblk m c 3 t : S512x3.Idx → EReal) = arg m c main_arg3 := by whole_block m c t, 3, main_v1, V_main_v1, win0_3, S512x3
theorem blk4 : (iblk m c 4 t : S512x512.Idx → EReal) = arg m c main_arg4 := by whole_block m c t, 4, main_v2, V_main_v2, win0_4, S512x512
theorem blk5 : (iblk m c 5 t : S512x1.Idx → EReal) = arg m c main_arg5 := by whole_block m c t, 5, main_arg5, V_main_arg5, win0_5, S512x1
theorem blk6 : (iblk m c 6 t : S512x3.Idx → EReal) = arg m c main_arg6 := by whole_block m c t, 6, main_v3, V_main_v3, win0_6, S512x3
theorem blk7 : (iblk m c 7 t : S512x512.Idx → EReal) = arg m c main_arg7 := by whole_block m c t, 7, main_v4, V_main_v4, win0_7, S512x512
theorem blk8 : (iblk m c 8 t : S512x1.Idx → EReal) = arg m c main_arg8 := by whole_block m c t, 8, main_arg8, V_main_arg8, win0_8, S512x1
theorem blk9 : (iblk m c 9 t : S512x3.Idx → EReal) = arg m c main_arg9 := by whole_block m c t, 9, main_v5, V_main_v5, win0_9, S512x3
theorem blk10 : (iblk m c 10 t : S512x512.Idx → EReal) = arg m c main_arg10 := by whole_block m c t, 10, main_v6, V_main_v6, win0_10, S512x512
theorem blk11 : (iblk m c 11 t : S512x1.Idx → EReal) = arg m c main_arg11 := by whole_block m c t, 11, main_arg11, V_main_arg11, win0_11, S512x1
theorem blk12 : (iblk m c 12 t : S512x3.Idx → EReal) = arg m c main_arg12 := by whole_block m c t, 12, main_v7, V_main_v7, win0_12, S512x3
theorem blk13 : (iblk m c 13 t : S512x512.Idx → EReal) = arg m c main_arg13 := by whole_block m c t, 13, main_v8, V_main_v8, win0_13, S512x512
theorem blk14 : (iblk m c 14 t : S512x1.Idx → EReal) = arg m c main_arg14 := by whole_block m c t, 14, main_arg14, V_main_arg14, win0_14, S512x1
theorem blk15 : (iblk m c 15 t : S512x3.Idx → EReal) = arg m c main_arg15 := by whole_block m c t, 15, main_v9, V_main_v9, win0_15, S512x3
theorem blk16 : (iblk m c 16 t : S512x512.Idx → EReal) = arg m c main_arg16 := by whole_block m c t, 16, main_v10, V_main_v10, win0_16, S512x512
theorem blk17 : (iblk m c 17 t : S512x1.Idx → EReal) = arg m c main_arg17 := by whole_block m c t, 17, main_arg17, V_main_arg17, win0_17, S512x1
theorem blk18 : (iblk m c 18 t : S512x3.Idx → EReal) = arg m c main_arg18 := by whole_block m c t, 18, main_v11, V_main_v11, win0_18, S512x3
theorem blk19 : (iblk m c 19 t : S512x512.Idx → EReal) = arg m c main_arg19 := by whole_block m c t, 19, main_v12, V_main_v12, win0_19, S512x512
theorem blk20 : (iblk m c 20 t : S512x1.Idx → EReal) = arg m c main_arg20 := by whole_block m c t, 20, main_arg20, V_main_arg20, win0_20, S512x1
theorem blk21 : (iblk m c 21 t : S512x3.Idx → EReal) = arg m c main_arg21 := by whole_block m c t, 21, main_v13, V_main_v13, win0_21, S512x3
theorem blk22 : (iblk m c 22 t : S512x512.Idx → EReal) = arg m c main_arg22 := by whole_block m c t, 22, main_v14, V_main_v14, win0_22, S512x512
theorem blk23 : (iblk m c 23 t : S512x1.Idx → EReal) = arg m c main_arg23 := by whole_block m c t, 23, main_arg23, V_main_arg23, win0_23, S512x1
theorem blk24 : (iblk m c 24 t : S512x3.Idx → EReal) = arg m c main_arg24 := by whole_block m c t, 24, main_v15, V_main_v15, win0_24, S512x3
theorem blk25 : (iblk m c 25 t : S512x512.Idx → EReal) = arg m c main_arg25 := by whole_block m c t, 25, main_v16, V_main_v16, win0_25, S512x512
theorem blk26 : (iblk m c 26 t : S512x1.Idx → EReal) = arg m c main_arg26 := by whole_block m c t, 26, main_arg26, V_main_arg26, win0_26, S512x1
theorem blk27 : (iblk m c 27 t : S1x512.Idx → EReal) = arg m c main_arg27 := by whole_block m c t, 27, main_v17, V_main_v17, win0_27, S1x512
theorem blk28 : (iblk m c 28 t : S1x1.Idx → EReal) = arg m c main_arg28 := by whole_block m c t, 28, main_arg28, V_main_arg28, win0_28, S1x1

/-- So the network's arrays read through the windows at any point are the arrays as launched. -/
theorem params_blk :
    Params.mk (iblk m c 1 t) (iblk m c 2 t)
      (Block.mk (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t))
      (Block.mk (iblk m c 15 t) (iblk m c 16 t) (iblk m c 17 t) (iblk m c 18 t) (iblk m c 19 t) (iblk m c 20 t)
        (iblk m c 21 t) (iblk m c 22 t) (iblk m c 23 t) (iblk m c 24 t) (iblk m c 25 t) (iblk m c 26 t))
      (iblk m c 27 t) (iblk m c 28 t) = params m c := by
  unfold params
  rw [blk1 m c t, blk2 m c t, blk3 m c t, blk4 m c t, blk5 m c t, blk6 m c t, blk7 m c t, blk8 m c t, blk9 m c t,
    blk10 m c t, blk11 m c t, blk12 m c t, blk13 m c t, blk14 m c t, blk15 m c t, blk16 m c t, blk17 m c t,
    blk18 m c t, blk19 m c t, blk20 m c t, blk21 m c t, blk22 m c t, blk23 m c t, blk24 m c t, blk25 m c t,
    blk26 m c t, blk27 m c t, blk28 m c t]

/-- Column q of the input window's block at point t is the column of x that the result's block puts at q. -/
theorem xcol (q : Fin 1024) :
    column (iblk m c 0 t : S3x1024.Idx → EReal) q
      = column (arg m c main_arg0 : S3x65536.Idx → EReal) (((cfg0.win 29).blk t).view.emb (ix2 (0 : Fin 1) q) 1) := by
  funext k
  show V m c main_arg0 (((cfg0.win 0).blk t).view.emb (ix2 k q)) = arg m c main_arg0 (ix2 k _)
  rw [V_main_arg0]
  obtain ⟨e0, e1, e2⟩ := idx_io t
  refine congrArg _ (funext fun a => Fin.ext ?_)
  match a with
  | ⟨0, _⟩ => show win0_0.index t (0 : Fin 2) * 3 + 1 * k.val = k.val; omega
  | ⟨1, _⟩ => show win0_0.index t (1 : Fin 2) * 1024 + 1 * q.val = win0_29.index t (1 : Fin 2) * 1024 + 1 * q.val; omega

end wholeBlocks

/-! ## What a point writes back, the cover, and the array after the run -/

theorem hz : (![0, 0] : Fin 2 → Nat) = fun _ => 0 := funext fun a => by fin_cases a <;> rfl

/-- WHAT POINT t WRITES BACK is block t of the network's row. -/
theorem flushed_eq (c : Dev nD) (t : Fin cfg0.N) :
    (dats m 0 c).flushed 29 t = ((cfg0.win 29).blk t).view.read (Elt Ideal) (result m c) := by
  rw [flushed29]
  unfold out0_29
  rw [View.canon_unit_zero hz]
  simp only [View.ld_unit_zero (S := S3x1024) hz, View.ld_unit_zero (S := S512x3) hz, View.ld_unit_zero (S := S512x1) hz,
    View.ld_unit_zero (S := S512x512) hz, View.ld_unit_zero (S := S1x512) hz, View.ld_unit_zero (S := S1x1) hz]
  funext j
  obtain ⟨p, q, rfl⟩ : ∃ (p : Fin 1) (q : Fin 1024), j = ix2 p q := ⟨j 0, j 1, eq_ix2 j⟩
  obtain rfl : p = 0 := Subsingleton.elim _ _
  refine (out_tile (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t)
    (iblk m c 21 t) (iblk m c 22 t) (iblk m c 23 t) (iblk m c 24 t) (iblk m c 25 t) (iblk m c 26 t) (iblk m c 27 t)
    (iblk m c 28 t) q).trans ?_
  rw [params_blk m c t, xcol m c t q]
  rfl

/-- An index of the row is in point t's block iff each coordinate is in the block's range on its axis. -/
theorem mem_blk (t : Fin cfg0.N) (i : S1x65536.Idx) :
    i ∈ ((cfg0.win 29).blk t).view.set ↔ ∀ a : Fin 2, win0_29.index t a * S1x1024.size a ≤ (i a).val
      ∧ (i a).val < win0_29.index t a * S1x1024.size a + S1x1024.size a := by
  show i ∈ ((View.whole main_v18).slice (win0_29.rect t)).set ↔ _
  rw [View.set_slice_whole, Rect.mem_set_unit]
  exact Iff.rfl

/-- Every index of the row is in some point's block: column n is in block n / 1024. -/
theorem cover (i : S1x65536.Idx) : ∃ t : Fin cfg0.N, (cfg0.win 29).flush t = true ∧ i ∈ ((cfg0.win 29).blk t).view.set := by
  have hi0 : (i 0).val < 1 := (i 0).isLt
  have hi1 : (i 1).val < 65536 := (i 1).isLt
  obtain ⟨t, ht⟩ := idx_onto ⟨(i 1).val / 1024, by omega⟩
  have q0 : win0_29.index t (0 : Fin 2) = 0 := congrFun ht 0
  have q1 : win0_29.index t (1 : Fin 2) = (i 1).val / 1024 := congrFun ht 1
  refine ⟨t, flush0_29 t, ?_⟩
  rw [mem_blk]
  intro a
  match a with
  | ⟨0, _⟩ => show win0_29.index t (0 : Fin 2) * 1 ≤ (i 0).val ∧ (i 0).val < win0_29.index t (0 : Fin 2) * 1 + 1; omega
  | ⟨1, _⟩ => show win0_29.index t (1 : Fin 2) * 1024 ≤ (i 1).val ∧ (i 1).val < win0_29.index t (1 : Fin 2) * 1024 + 1024; omega

/-- THE ARRAY after the run is the network's row. -/
theorem final (c : Dev nD) : (dats m 0 c).arrAt 29 cfg0.N = result m c :=
  (dats m 0 c).arrAt_eq_of_cover 29 (result m c) (fun t _ => flushed_eq m c t) cover

end Cert.KernelIdeal.Columns

end
-- ==== Proof.ReferenceColumns.lean ====
/-
  The reference, column by column.

  The reference computes whole [512, 65536] arrays: a product with the input is row r of the weights
  against column n of x, a product with a hidden array is row r against column n of that array, a bias
  column is broadcast along the 65536 columns, and tanh, sums, differences and products act entry by
  entry.  So column n of every hidden array is a function of column n of x alone: the first layer's
  array holds `first`, each gate's array holds `gate` of the state below it, each block's array holds
  the block's `step`, and the result row holds the readout of the last state.
-/
import proofs.«102482_j26800595927155_1_alg».proof.Proof.Gen.ReferenceIdeal.Read
import proofs.«102482_j26800595927155_1_alg».proof.Proof.GatedColumn
import proofs.«102482_j26800595927155_1_alg».proof.Proof.LibPlainDot
import Idealize.ShloMosaic.Lib.Pipeline.Value
import Idealize.ShloMosaic.Lib.ValueIdx

noncomputable section

open scoped BigOperators

namespace Cert.ReferenceIdeal.Columns

open Idealize.ShloMosaic Idealize.ShloMosaic.ValueIdx
open Cert.ReferenceIdeal Cert.ReferenceIdeal.Gen Cert.ReferenceIdeal.Read Cert.GatedColumn Cert.Lib.PlainDot

/-! ## The three products are plain products -/

theorem plain_in : Plain dot_S512x3_S3x65536_S512x65536_1_0_0_1_n_n := ⟨rfl, rfl, rfl, rfl, rfl, rfl⟩
theorem plain_hid : Plain dot_S512x512_S512x65536_S512x65536_1_0_0_1_n_n := ⟨rfl, rfl, rfl, rfl, rfl, rfl⟩
theorem plain_out : Plain dot_S1x512_S512x65536_S1x65536_1_0_0_1_n_n := ⟨rfl, rfl, rfl, rfl, rfl, rfl⟩

/-- A [512, 65536] array holds the states `σ`: its column n is `σ n`. -/
def Holds (A : S512x65536.Idx → EReal) (σ : Fin 65536 → State) : Prop :=
  ∀ (r : Fin 512) (n : Fin 65536), A (ix2 r n) = σ n r

theorem Holds.col {A : S512x65536.Idx → EReal} {σ : Fin 65536 → State} (h : Holds A σ) (n : Fin 65536) :
    (fun k : Fin 512 => A (ix2 k n)) = σ n := funext fun k => h k n

/-- Input weights times x: row r against column n. -/
theorem in_dot (u : FVec Ideal S512x3 .f32) (x : FVec Ideal S3x65536 .f32) (r : Fin 512) (n : Fin 65536) :
    Host.dotGeneral dot_S512x3_S3x65536_S512x65536_1_0_0_1_n_n none u x (ix2 r n) = inProj u (column x n) r :=
  dotGeneral_apply plain_in none .single u x (ix2 r n)

/-- Hidden weights times a hidden array: row r against column n of the array. -/
theorem hid_dot (w : FVec Ideal S512x512 .f32) (s : FVec Ideal S512x65536 .f32) (r : Fin 512) (n : Fin 65536) :
    Host.dotGeneral dot_S512x512_S512x65536_S512x65536_1_0_0_1_n_n none w s (ix2 r n)
      = hidProj w (fun k => s (ix2 k n)) r :=
  dotGeneral_apply plain_hid none .single w s (ix2 r n)

/-- The readout row times a hidden array: the row against column n of the array. -/
theorem out_dot (w : FVec Ideal S1x512 .f32) (s : FVec Ideal S512x65536 .f32) (n : Fin 65536) :
    Host.dotGeneral dot_S1x512_S512x65536_S1x65536_1_0_0_1_n_n none w s (ix2 (0 : Fin 1) n)
      = ∑ k : Fin 512, w (ix2 (0 : Fin 1) k) * s (ix2 k n) :=
  dotGeneral_apply plain_out none .single w s (ix2 (0 : Fin 1) n)

/-- A bias column broadcast along the columns. -/
theorem bias_col (b : Vec Ideal S512x1 .f32) (r : Fin 512) (n : Fin 65536) :
    broadcastInDim S512x65536 ![0, 1] bcast_S512x1_S512x65536_0_1 b (ix2 r n) = b (ix2 r (0 : Fin 1)) :=
  (val_main_v1_apply (F := Ideal) b (ix2 r n)).trans
    (congrArg b (funext fun a => match a with | ⟨0, _⟩ => rfl | ⟨1, _⟩ => rfl))

/-- The readout's scalar bias broadcast along the columns. -/
theorem out_bias (b : Vec Ideal S1x1 .f32) (n : Fin 65536) :
    broadcastInDim S1x65536 ![0, 1] bcast_S1x1_S1x65536_0_1 b (ix2 (0 : Fin 1) n) = b (ix2 (0 : Fin 1) (0 : Fin 1)) :=
  (val_main_v65_apply (F := Ideal) b (ix2 (0 : Fin 1) n)).trans
    (congrArg b (funext fun a => match a with | ⟨0, _⟩ => rfl | ⟨1, _⟩ => rfl))

/-! ## The arrays of one gate and of one block -/

/-- The array of a gate over the hidden array `s`. -/
abbrev gateArr (u : FVec Ideal S512x3 .f32) (w : FVec Ideal S512x512 .f32) (b : Vec Ideal S512x1 .f32)
    (x : FVec Ideal S3x65536 .f32) (s : FVec Ideal S512x65536 .f32) : FVec Ideal S512x65536 .f32 :=
  Host.tanh (addf (addf (Host.dotGeneral dot_S512x3_S3x65536_S512x65536_1_0_0_1_n_n none u x)
      (Host.dotGeneral dot_S512x512_S512x65536_S512x65536_1_0_0_1_n_n none w s))
    (broadcastInDim S512x65536 ![0, 1] bcast_S512x1_S512x65536_0_1 b))

/-- The array of the first layer. -/
theorem first_arr (u : FVec Ideal S512x3 .f32) (b : Vec Ideal S512x1 .f32) (x : FVec Ideal S3x65536 .f32) :
    Holds (Host.tanh (addf (Host.dotGeneral dot_S512x3_S3x65536_S512x65536_1_0_0_1_n_n none u x)
        (broadcastInDim S512x65536 ![0, 1] bcast_S512x1_S512x65536_0_1 b)))
      (fun n => first u b (column x n)) := by
  intro r n
  show Ideal.tanh (Host.dotGeneral dot_S512x3_S3x65536_S512x65536_1_0_0_1_n_n none u x (ix2 r n)
      + broadcastInDim S512x65536 ![0, 1] bcast_S512x1_S512x65536_0_1 b (ix2 r n)) = _
  rw [in_dot, bias_col]
  rfl

/-- A gate's array, over an array holding `σ`, holds `gate` of each column and its state. -/
theorem gate_arr (u : FVec Ideal S512x3 .f32) (w : FVec Ideal S512x512 .f32) (b : Vec Ideal S512x1 .f32)
    (x : FVec Ideal S3x65536 .f32) (s : FVec Ideal S512x65536 .f32) (σ : Fin 65536 → State) (hs : Holds s σ) :
    Holds (gateArr u w b x s) (fun n => gate u w b (column x n) (σ n)) := by
  intro r n
  show Ideal.tanh (Host.dotGeneral dot_S512x3_S3x65536_S512x65536_1_0_0_1_n_n none u x (ix2 r n)
      + Host.dotGeneral dot_S512x512_S512x65536_S512x65536_1_0_0_1_n_n none w s (ix2 r n)
      + broadcastInDim S512x65536 ![0, 1] bcast_S512x1_S512x65536_0_1 b (ix2 r n)) = _
  rw [in_dot, hid_dot, bias_col, hs.col n]
  rfl

/-- The array of ones both blocks subtract a gate from. -/
abbrev onesArr : FVec Ideal S512x65536 .f32 :=
  broadcastInDim S512x65536 ![] bcast_S_S512x65536 (constant S_ .f32 0x3F800000#32)

/-- The array of one gated block over the hidden array `s`. -/
abbrev blockArr (B : Block) (x : FVec Ideal S3x65536 .f32) (s : FVec Ideal S512x65536 .f32) : FVec Ideal S512x65536 .f32 :=
  addf (mulf (subf onesArr (gateArr B.Ug B.Wg B.bg x s))
      (gateArr B.Uh B.Wh B.bh x (mulf s (gateArr B.Ur B.Wr B.br x s))))
    (mulf (gateArr B.Uz B.Wz B.bz x s) s)

/-- A block's array, over an array holding `σ`, holds the block's `step` of each column and its state. -/
theorem block_arr (B : Block) (x : FVec Ideal S3x65536 .f32) (s : FVec Ideal S512x65536 .f32)
    (σ : Fin 65536 → State) (hs : Holds s σ) :
    Holds (blockArr B x s) (fun n => B.step (column x n) (σ n)) := by
  have hr := gate_arr B.Ur B.Wr B.br x s σ hs
  have hsr : Holds (mulf s (gateArr B.Ur B.Wr B.br x s))
      (fun n k => σ n k * gate B.Ur B.Wr B.br (column x n) (σ n) k) := by
    intro r n
    show s (ix2 r n) * gateArr B.Ur B.Wr B.br x s (ix2 r n) = _
    rw [hs r n, hr r n]
  have hh := gate_arr B.Uh B.Wh B.bh x _ _ hsr
  have hg := gate_arr B.Ug B.Wg B.bg x s σ hs
  have hz := gate_arr B.Uz B.Wz B.bz x s σ hs
  intro r n
  show (onesArr (ix2 r n) - gateArr B.Ug B.Wg B.bg x s (ix2 r n))
        * gateArr B.Uh B.Wh B.bh x (mulf s (gateArr B.Ur B.Wr B.br x s)) (ix2 r n)
      + gateArr B.Uz B.Wz B.bz x s (ix2 r n) * s (ix2 r n) = _
  rw [hg r n, hh r n, hz r n, hs r n]
  rfl

/-! ## The reference's result -/

/-- The reference's result row is the network applied to every column of x. The arguments are the program's,
    in its order: x, the first layer's weights and bias, the twelve arrays of each block, the readout row and its
    bias. -/
theorem result_eq (x0 : FVec Ideal S3x65536 .f32) (x1 : FVec Ideal S512x3 .f32) (x2 : Vec Ideal S512x1 .f32)
    (x3 : FVec Ideal S512x3 .f32) (x4 : FVec Ideal S512x512 .f32) (x5 : Vec Ideal S512x1 .f32)
    (x6 : FVec Ideal S512x3 .f32) (x7 : FVec Ideal S512x512 .f32) (x8 : Vec Ideal S512x1 .f32)
    (x9 : FVec Ideal S512x3 .f32) (x10 : FVec Ideal S512x512 .f32) (x11 : Vec Ideal S512x1 .f32)
    (x12 : FVec Ideal S512x3 .f32) (x13 : FVec Ideal S512x512 .f32) (x14 : Vec Ideal S512x1 .f32)
    (x15 : FVec Ideal S512x3 .f32) (x16 : FVec Ideal S512x512 .f32) (x17 : Vec Ideal S512x1 .f32)
    (x18 : FVec Ideal S512x3 .f32) (x19 : FVec Ideal S512x512 .f32) (x20 : Vec Ideal S512x1 .f32)
    (x21 : FVec Ideal S512x3 .f32) (x22 : FVec Ideal S512x512 .f32) (x23 : Vec Ideal S512x1 .f32)
    (x24 : FVec Ideal S512x3 .f32) (x25 : FVec Ideal S512x512 .f32) (x26 : Vec Ideal S512x1 .f32)
    (x27 : FVec Ideal S1x512 .f32) (x28 : Vec Ideal S1x1 .f32) :
    val_main_v66 (F := Ideal) x0 x1 x2 x3 x4 x5 x6 x7 x8 x9 x10 x11 x12 x13 x14 x15 x16 x17 x18 x19 x20 x21 x22 x23 x24 x25 x26 x27 x28
      = (Params.mk x1 x2 (Block.mk x3 x4 x5 x6 x7 x8 x9 x10 x11 x12 x13 x14)
          (Block.mk x15 x16 x17 x18 x19 x20 x21 x22 x23 x24 x25 x26) x27 x28).onColumns x0 := by
  -- the three hidden states: the first layer's, and each block's over the one before
  have hS1 : Holds (val_main_v3 (F := Ideal) x0 x1 x2) (fun n => first x1 x2 (column x0 n)) := first_arr x1 x2 x0
  have hS2 : Holds (val_main_v33 (F := Ideal) x0 x1 x2 x3 x4 x5 x6 x7 x8 x9 x10 x11 x12 x13 x14) _ :=
    block_arr ⟨x3, x4, x5, x6, x7, x8, x9, x10, x11, x12, x13, x14⟩ x0 _ _ hS1
  have hS3 : Holds (val_main_v63 (F := Ideal) x0 x1 x2 x3 x4 x5 x6 x7 x8 x9 x10 x11 x12 x13 x14 x15 x16 x17 x18 x19 x20 x21 x22 x23 x24 x25 x26) _ :=
    block_arr ⟨x15, x16, x17, x18, x19, x20, x21, x22, x23, x24, x25, x26⟩ x0 _ _ hS2
  funext i
  obtain ⟨p, n, rfl⟩ : ∃ (p : Fin 1) (n : Fin 65536), i = ix2 p n := ⟨i 0, i 1, eq_ix2 i⟩
  obtain rfl : p = 0 := Subsingleton.elim _ _
  show Host.dotGeneral dot_S1x512_S512x65536_S1x65536_1_0_0_1_n_n none x27
        (val_main_v63 (F := Ideal) x0 x1 x2 x3 x4 x5 x6 x7 x8 x9 x10 x11 x12 x13 x14 x15 x16 x17 x18 x19 x20 x21 x22 x23 x24 x25 x26) (ix2 (0 : Fin 1) n)
      + broadcastInDim S1x65536 ![0, 1] bcast_S1x1_S1x65536_0_1 x28 (ix2 (0 : Fin 1) n) = _
  rw [out_dot, out_bias]
  exact congrArg (· + x28 (ix2 (0 : Fin 1) (0 : Fin 1))) (Finset.sum_congr rfl fun k _ => by rw [hS3 k n])

/-- The same, from arguments that agree with another program's: the row of the other program's arguments. -/
theorem result_eq_of_agree {x0 y0 : FVec Ideal S3x65536 .f32} {x1 y1 : FVec Ideal S512x3 .f32} {x2 y2 : Vec Ideal S512x1 .f32} {x3 y3 : FVec Ideal S512x3 .f32} {x4 y4 : FVec Ideal S512x512 .f32} {x5 y5 : Vec Ideal S512x1 .f32} {x6 y6 : FVec Ideal S512x3 .f32} {x7 y7 : FVec Ideal S512x512 .f32} {x8 y8 : Vec Ideal S512x1 .f32} {x9 y9 : FVec Ideal S512x3 .f32} {x10 y10 : FVec Ideal S512x512 .f32} {x11 y11 : Vec Ideal S512x1 .f32} {x12 y12 : FVec Ideal S512x3 .f32} {x13 y13 : FVec Ideal S512x512 .f32} {x14 y14 : Vec Ideal S512x1 .f32} {x15 y15 : FVec Ideal S512x3 .f32} {x16 y16 : FVec Ideal S512x512 .f32} {x17 y17 : Vec Ideal S512x1 .f32} {x18 y18 : FVec Ideal S512x3 .f32} {x19 y19 : FVec Ideal S512x512 .f32} {x20 y20 : Vec Ideal S512x1 .f32} {x21 y21 : FVec Ideal S512x3 .f32} {x22 y22 : FVec Ideal S512x512 .f32} {x23 y23 : Vec Ideal S512x1 .f32} {x24 y24 : FVec Ideal S512x3 .f32} {x25 y25 : FVec Ideal S512x512 .f32} {x26 y26 : Vec Ideal S512x1 .f32} {x27 y27 : FVec Ideal S1x512 .f32} {x28 y28 : Vec Ideal S1x1 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) :
    val_main_v66 (F := Ideal) x0 x1 x2 x3 x4 x5 x6 x7 x8 x9 x10 x11 x12 x13 x14 x15 x16 x17 x18 x19 x20 x21 x22 x23 x24 x25 x26 x27 x28
      = (Params.mk y1 y2 (Block.mk y3 y4 y5 y6 y7 y8 y9 y10 y11 y12 y13 y14)
          (Block.mk y15 y16 y17 y18 y19 y20 y21 y22 y23 y24 y25 y26) y27 y28).onColumns y0 := by
  subst h0 h1 h2 h3 h4 h5 h6 h7 h8 h9 h10 h11 h12 h13 h14 h15 h16 h17 h18 h19 h20 h21 h22 h23 h24 h25 h26 h27 h28
  exact result_eq x0 x1 x2 x3 x4 x5 x6 x7 x8 x9 x10 x11 x12 x13 x14 x15 x16 x17 x18 x19 x20 x21 x22 x23 x24 x25 x26 x27 x28

end Cert.ReferenceIdeal.Columns

end
-- ==== Proof.lean ====
/-
  The kernel against its reference: a network of a first layer and two gated blocks of width 512, applied
  to each of the 65536 columns of a 3-row input and read out to one row.

  Both programs compute, on the extended reals, ONE function of the argument arrays: the row whose entry n is
  the network on column n of x (Proof/GatedColumn.lean).  The reference does it on whole [512, 65536] arrays
  (Proof/ReferenceColumns.lean: column n of every hidden array is a function of column n of x alone).  The kernel
  does it on 64 tiles of 1024 columns, with the weights recast to a narrower float format — the identity on
  the extended reals — and each product accumulated into zero, which is the plain sum (Proof/TileColumns.lean);
  the 64 blocks it writes back cover the result row (Proof/KernelColumns.lean).  No law of arithmetic beyond
  reading a product as a sum is used, so the precondition is never opened.
-/
import proofs.«102482_j26800595927155_1_alg».proof.Defs
import proofs.«102482_j26800595927155_1_alg».proof.Proof.Gen.Kernel
import proofs.«102482_j26800595927155_1_alg».proof.Proof.Gen.Kernel.Skeleton
import proofs.«102482_j26800595927155_1_alg».proof.Proof.Gen.Kernel.Launch
import proofs.«102482_j26800595927155_1_alg».proof.Proof.Gen.Kernel.Points
import proofs.«102482_j26800595927155_1_alg».proof.Proof.KernelFrame
import proofs.«102482_j26800595927155_1_alg».proof.Proof.Gen.KernelIdeal
import proofs.«102482_j26800595927155_1_alg».proof.Proof.Gen.KernelIdeal.Skeleton
import proofs.«102482_j26800595927155_1_alg».proof.Proof.Gen.KernelIdeal.Launch
import proofs.«102482_j26800595927155_1_alg».proof.Proof.Gen.KernelIdeal.Points
import proofs.«102482_j26800595927155_1_alg».proof.Proof.KernelIdealFrame
import proofs.«102482_j26800595927155_1_alg».proof.Proof.KernelIdealValue
import proofs.«102482_j26800595927155_1_alg».proof.Proof.Gen.ReferenceIdeal
import proofs.«102482_j26800595927155_1_alg».proof.Proof.Gen.ReferenceIdeal.Run
import proofs.«102482_j26800595927155_1_alg».proof.Proof.Gen.ReferenceIdeal.Read
import proofs.«102482_j26800595927155_1_alg».proof.Proof.Gen.Pre_finite_inputs
import proofs.«102482_j26800595927155_1_alg».proof.Proof.KernelColumns
import proofs.«102482_j26800595927155_1_alg».proof.Proof.ReferenceColumns
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the network's row of its arguments (the blocks
    it writes back cover that row) and the reference's result is the network's row of its own: the same row. -/
theorem algebraic : Cert.algebraic_KernelIdeal_ReferenceIdeal := by
  intro m ρ m' ρ' _ hagree
  refine ⟨fun c => Cert.KernelIdeal.Columns.result m c, ?_, ?_⟩
  · exact (θ_run Cert.KernelIdeal.defs _ _).mono
      (fun r h c => ⟨(h c).1.trans (Cert.KernelIdeal.Columns.final m c), (h c).2⟩)
      (Cert.KernelIdeal.ValueP.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28⟩ := hagree c
    exact (Cert.ReferenceIdeal.Read.val_main_v66_eq (F := Ideal) m' c).trans
      (Cert.ReferenceIdeal.Columns.result_eq_of_agree h0 h1 h2 h3 h4 h5 h6 h7 h8 h9 h10 h11 h12 h13 h14 h15 h16 h17 h18 h19 h20 h21 h22 h23 h24 h25 h26 h27 h28)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
